-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1920x512 : Shape := ⟨2, ![1920, 512]⟩
abbrev S1920x64x256 : Shape := ⟨3, ![1920, 64, 256]⟩
abbrev S512x256 : Shape := ⟨2, ![512, 256]⟩
abbrev S256x512 : Shape := ⟨2, ![256, 512]⟩
abbrev S512x512 : Shape := ⟨2, ![512, 512]⟩
abbrev S_ : Shape := ⟨0, ![]⟩

class Facts : Prop where
  bcast_S_S1920x512 : S_.BroadcastsInDim S1920x512 (![] : Fin 0 → Fin S1920x512.rank)
  reducesTo_S1920x512_S_d0_1 : S1920x512.ReducesTo [0, 1] S_
  h_S_ : 0 < S_.numel
  bcast_S_S1920x64x256 : S_.BroadcastsInDim S1920x64x256 (![] : Fin 0 → Fin S1920x64x256.rank)
  reducesTo_S1920x64x256_S_d0_1_2 : S1920x64x256.ReducesTo [0, 1, 2] S_
  bcast_S_S512x256 : S_.BroadcastsInDim S512x256 (![] : Fin 0 → Fin S512x256.rank)
  reducesTo_S512x256_S_d0_1 : S512x256.ReducesTo [0, 1] S_
  bcast_S_S256x512 : S_.BroadcastsInDim S256x512 (![] : Fin 0 → Fin S256x512.rank)
  reducesTo_S256x512_S_d0_1 : S256x512.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S1920x512 .f32) (main_arg1 : FVec F S1920x64x256 .f32) (main_arg2 : FVec F S512x256 .f32) (main_arg3 : FVec F S256x512 .f32) (main_arg4 : FVec F S512x512 .f32) : IVec S_ 1 :=
  let main_v0 : FVec F S1920x512 .f32 := Host.absf main_arg0
  let main_cst : FVec F S_ .f32 := constant S_ .f32 0x7F800000#32
  let main_v1 : FVec F S1920x512 .f32 := broadcastInDim S1920x512 ![] bcast_S_S1920x512 main_cst
  let main_v2 : IVec S1920x512 1 := cmpf .olt main_v0 main_v1
  let main_c : IVec S_ 1 := constantI S_ 1 1#1
  let main_v3 : IVec S_ 1 := (fun x v => Host.reduce IntOp.andi x v reducesTo_S1920x512_S_d0_1 h_S_) main_v2 main_c
  let main_v4 : FVec F S1920x64x256 .f32 := Host.absf main_arg1
  let main_cst_0 : FVec F S_ .f32 := constant S_ .f32 0x7F800000#32
  let main_v5 : FVec F S1920x64x256 .f32 := broadcastInDim S1920x64x256 ![] bcast_S_S1920x64x256 main_cst_0
  let main_v6 : IVec S1920x64x256 1 := cmpf .olt main_v4 main_v5
  let main_c_1 : IVec S_ 1 := constantI S_ 1 1#1
  let main_v7 : IVec S_ 1 := (fun x v => Host.reduce IntOp.andi x v reducesTo_S1920x64x256_S_d0_1_2 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_v13 main_v16
-- ==== Kernel.lean ====
abbrev S1920x512 : Shape := ⟨2, ![1920, 512]⟩
abbrev S1920x64x256 : Shape := ⟨3, ![1920, 64, 256]⟩
abbrev S512x256 : Shape := ⟨2, ![512, 256]⟩
abbrev S256x512 : Shape := ⟨2, ![256, 512]⟩
abbrev S512x512 : Shape := ⟨2, ![512, 512]⟩
abbrev S768x512 : Shape := ⟨2, ![768, 512]⟩
abbrev S1920x64 : Shape := ⟨2, ![1920, 64]⟩
abbrev S240x512 : Shape := ⟨2, ![240, 512]⟩
abbrev S240x64x256 : Shape := ⟨3, ![240, 64, 256]⟩
abbrev S240x64 : Shape := ⟨2, ![240, 64]⟩
abbrev S240x256 : Shape := ⟨2, ![240, 256]⟩
abbrev S240x1x256 : Shape := ⟨3, ![240, 1, 256]⟩
abbrev S240 : Shape := ⟨1, ![240]⟩
abbrev S240x1 : Shape := ⟨2, ![240, 1]⟩
abbrev S240x64x1 : Shape := ⟨3, ![240, 64, 1]⟩
abbrev S240x768 : Shape := ⟨2, ![240, 768]⟩

abbrev nBuf : Space → Nat
  | .hbm => 8
  | .vmem => 10
  | .smem => 0
  | _ => 0

abbrev bufTy : (tb : Table) → Fin (tcTables nBuf tb) → BufTy
  | .hbm, ⟨0, _⟩ => ⟨S1920x512, .f32⟩
  | .hbm, ⟨1, _⟩ => ⟨S1920x64x256, .f32⟩
  | .hbm, ⟨2, _⟩ => ⟨S512x256, .f32⟩
  | .hbm, ⟨3, _⟩ => ⟨S256x512, .f32⟩
  | .hbm, ⟨4, _⟩ => ⟨S512x512, .f32⟩
  | .hbm, ⟨5, _⟩ => ⟨S768x512, .f32⟩
  | .hbm, ⟨6, _⟩ => ⟨S1920x512, .f32⟩
  | .hbm, ⟨7, _⟩ => ⟨S1920x64, .f32⟩
  | .local _ .vmem, ⟨0, _⟩ => ⟨S240x512, .f32⟩
  | .local _ .vmem, ⟨1, _⟩ => ⟨S240x512, .f32⟩
  | .local _ .vmem, ⟨2, _⟩ => ⟨S240x64x256, .f32⟩
  | .local _ .vmem, ⟨3, _⟩ => ⟨S240x64x256, .f32⟩
  | .local _ .vmem, ⟨4, _⟩ => ⟨S512x256, .f32⟩
  | .local _ .vmem, ⟨5, _⟩ => ⟨S768x512, .f32⟩
  | .local _ .vmem, ⟨6, _⟩ => ⟨S240x512, .f32⟩
  | .local _ .vmem, ⟨7, _⟩ => ⟨S240x512, .f32⟩
  | .local _ .vmem, ⟨8, _⟩ => ⟨S240x64, .f32⟩
  | .local _ .vmem, ⟨9, _⟩ => ⟨S240x64, .f32⟩
  | _, _ => ⟨S1920x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S240x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S240x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S240x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S240x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S256x512_S512x512_S768x512_d0 : Shape.Concatenates [S256x512, S512x512] S768x512 0
  inb_S240x512_S240x512_0_0 : ∀ a, (![0, 0] : Fin 2 → Nat) a + S240x512.size a ≤ S240x512.size a
  h_S240x512 : 0 < S240x512.numel
  inb_S240x64x256_S240x64x256_0_0_0 : ∀ a, (![0, 0, 0] : Fin 3 → Nat) a + S240x64x256.size a ≤ S240x64x256.size a
  h_S240x64x256 : 0 < S240x64x256.numel
  inb_S512x256_S512x256_0_0 : ∀ a, (![0, 0] : Fin 2 → Nat) a + S512x256.size a ≤ S512x256.size a
  h_S512x256 : 0 < S512x256.numel
  shapeCasts_S240x256_S240x1x256 : S240x256.ShapeCasts S240x1x256
  broadcasts_S240x1x256_S240x64x256 : S240x1x256.Broadcasts S240x64x256
  reduces_S240x64x256_S240x64 : S240x64x256.Reduces [2] S240x64
  reduces_S240x64_S240 : S240x64.Reduces [1] S240
  shapeCasts_S240_S240x1 : S240.ShapeCasts S240x1
  broadcasts_S240x1_S240x64 : S240x1.Broadcasts S240x64
  shapeCasts_S240x64_S240x64x1 : S240x64.ShapeCasts S240x64x1
  broadcasts_S240x64x1_S240x64x256 : S240x64x1.Broadcasts S240x64x256
  reduces_S240x64x256_S240x256 : S240x64x256.Reduces [1] S240x256
  concatenates_S240x256_S240x512_S240x768_d1 : Shape.Concatenates [S240x256, S240x512] S240x768 1
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S240x64_S240x64_0_0 : ∀ a, (![0, 0] : Fin 2 → Nat) a + S240x64.size a ≤ S240x64.size a
  h_S240x64 : 0 < S240x64.numel
  dot_S240x512_S512x256_S240x256_1_0_0_1_n_n_wf : DotDims.WF S240x512 S512x256 S240x256 [1] [0] [0] [1] [] []
  dot_S240x768_S768x512_S240x512_1_0_0_1_n_n_wf : DotDims.WF S240x768 S768x512 S240x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S240x512.size a ≤ S1920x512.size a
  hwx0_0 : ∀ i : grid0.Coords, EltTy.bits .f32 = 32 ∨ (Rect.block (s := S1920x512) S240x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S240x64x256.size a ≤ S1920x64x256.size a
  hwx0_1 : ∀ i : grid0.Coords, EltTy.bits .f32 = 32 ∨ (Rect.block (s := S1920x64x256) S240x64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x512.size a ≤ S768x512.size a
  hwx0_3 : ∀ i : grid0.Coords, EltTy.bits .f32 = 32 ∨ (Rect.block (s := S768x512) S768x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S240x512.size a ≤ S1920x512.size a
  hwx0_4 : ∀ i : grid0.Coords, EltTy.bits .f32 = 32 ∨ (Rect.block (s := S1920x512) S240x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S240x64.size a ≤ S1920x64.size a
  hwx0_5 : ∀ i : grid0.Coords, EltTy.bits .f32 = 32 ∨ (Rect.block (s := S1920x64) S240x64.size (cc0_transform_5 i) (hinb0_5 i)).WholeWords (EltTy.packing .f32)

variable [Facts₀]

def dot_S240x512_S512x256_S240x256_1_0_0_1_n_n : DotDims S240x512 S512x256 S240x256 where
  lhsContracting := [1]
  rhsContracting := [0]
  lhsNonContracting := [0]
  rhsNonContracting := [1]
  lhsBatch := []
  rhsBatch := []
  wf := dot_S240x512_S512x256_S240x256_1_0_0_1_n_n_wf
def dot_S240x768_S768x512_S240x512_1_0_0_1_n_n : DotDims S240x768 S768x512 S240x512 where
  lhsContracting := [1]
  rhsContracting := [0]
  lhsNonContracting := [0]
  rhsNonContracting := [1]
  lhsBatch := []
  rhsBatch := []
  wf := dot_S240x768_S768x512_S240x512_1_0_0_1_n_n_wf

abbrev win0_0 : Pipeline.Window sig grid0 :=
  Pipeline.Window.ofSpec (Memref.whole main_arg0) S240x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S240x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S768x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S240x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S240x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1920x512 : Shape := ⟨2, ![1920, 512]⟩
abbrev S1920x64x256 : Shape := ⟨3, ![1920, 64, 256]⟩
abbrev S512x256 : Shape := ⟨2, ![512, 256]⟩
abbrev S256x512 : Shape := ⟨2, ![256, 512]⟩
abbrev S512x512 : Shape := ⟨2, ![512, 512]⟩
abbrev S1920x64 : Shape := ⟨2, ![1920, 64]⟩
abbrev S128x512 : Shape := ⟨2, ![128, 512]⟩
abbrev S128x64x256 : Shape := ⟨3, ![128, 64, 256]⟩
abbrev S128x64 : Shape := ⟨2, ![128, 64]⟩
abbrev S128x256 : Shape := ⟨2, ![128, 256]⟩
abbrev S128x1x256 : Shape := ⟨3, ![128, 1, 256]⟩
abbrev S128 : Shape := ⟨1, ![128]⟩
abbrev S128x1 : Shape := ⟨2, ![128, 1]⟩
abbrev S128x64x1 : Shape := ⟨3, ![128, 64, 1]⟩

abbrev nBuf : Space → Nat
  | .hbm => 7
  | .vmem => 11
  | .smem => 0
  | _ => 0

abbrev bufTy : (tb : Table) → Fin (tcTables nBuf tb) → BufTy
  | .hbm, ⟨0, _⟩ => ⟨S1920x512, .f32⟩
  | .hbm, ⟨1, _⟩ => ⟨S1920x64x256, .f32⟩
  | .hbm, ⟨2, _⟩ => ⟨S512x256, .f32⟩
  | .hbm, ⟨3, _⟩ => ⟨S256x512, .f32⟩
  | .hbm, ⟨4, _⟩ => ⟨S512x512, .f32⟩
  | .hbm, ⟨5, _⟩ => ⟨S1920x512, .f32⟩
  | .hbm, ⟨6, _⟩ => ⟨S1920x64, .f32⟩
  | .local _ .vmem, ⟨0, _⟩ => ⟨S128x512, .f32⟩
  | .local _ .vmem, ⟨1, _⟩ => ⟨S128x512, .f32⟩
  | .local _ .vmem, ⟨2, _⟩ => ⟨S128x64x256, .f32⟩
  | .local _ .vmem, ⟨3, _⟩ => ⟨S128x64x256, .f32⟩
  | .local _ .vmem, ⟨4, _⟩ => ⟨S512x256, .f32⟩
  | .local _ .vmem, ⟨5, _⟩ => ⟨S256x512, .f32⟩
  | .local _ .vmem, ⟨6, _⟩ => ⟨S512x512, .f32⟩
  | .local _ .vmem, ⟨7, _⟩ => ⟨S128x512, .f32⟩
  | .local _ .vmem, ⟨8, _⟩ => ⟨S128x512, .f32⟩
  | .local _ .vmem, ⟨9, _⟩ => ⟨S128x64, .f32⟩
  | .local _ .vmem, ⟨10, _⟩ => ⟨S128x64, .f32⟩
  | _, _ => ⟨S1920x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S128x512_S128x512_0_0 : ∀ a, (![0, 0] : Fin 2 → Nat) a + S128x512.size a ≤ S128x512.size a
  h_S128x512 : 0 < S128x512.numel
  inb_S128x64x256_S128x64x256_0_0_0 : ∀ a, (![0, 0, 0] : Fin 3 → Nat) a + S128x64x256.size a ≤ S128x64x256.size a
  h_S128x64x256 : 0 < S128x64x256.numel
  inb_S512x256_S512x256_0_0 : ∀ a, (![0, 0] : Fin 2 → Nat) a + S512x256.size a ≤ S512x256.size a
  h_S512x256 : 0 < S512x256.numel
  shapeCasts_S128x256_S128x1x256 : S128x256.ShapeCasts S128x1x256
  broadcasts_S128x1x256_S128x64x256 : S128x1x256.Broadcasts S128x64x256
  reduces_S128x64x256_S128x64 : S128x64x256.Reduces [2] S128x64
  reduces_S128x64_S128 : S128x64.Reduces [1] S128
  shapeCasts_S128_S128x1 : S128.ShapeCasts S128x1
  broadcasts_S128x1_S128x64 : S128x1.Broadcasts S128x64
  shapeCasts_S128x64_S128x64x1 : S128x64.ShapeCasts S128x64x1
  broadcasts_S128x64x1_S128x64x256 : S128x64x1.Broadcasts S128x64x256
  reduces_S128x64x256_S128x256 : S128x64x256.Reduces [1] S128x256
  inb_S256x512_S256x512_0_0 : ∀ a, (![0, 0] : Fin 2 → Nat) a + S256x512.size a ≤ S256x512.size a
  h_S256x512 : 0 < S256x512.numel
  inb_S512x512_S512x512_0_0 : ∀ a, (![0, 0] : Fin 2 → Nat) a + S512x512.size a ≤ S512x512.size a
  h_S512x512 : 0 < S512x512.numel
  inb_S128x64_S128x64_0_0 : ∀ a, (![0, 0] : Fin 2 → Nat) a + S128x64.size a ≤ S128x64.size a
  h_S128x64 : 0 < S128x64.numel
  dot_S128x512_S512x256_S128x256_1_0_0_1_n_n_wf : DotDims.WF S128x512 S512x256 S128x256 [1] [0] [0] [1] [] []
  dot_S128x256_S256x512_S128x512_1_0_0_1_n_n_wf : DotDims.WF S128x256 S256x512 S128x512 [1] [0] [0] [1] [] []
  dot_S128x512_S512x512_S128x512_1_0_0_1_n_n_wf : DotDims.WF S128x512 S512x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S1920x512.size a
  hwx0_0 : ∀ i : grid0.Coords, EltTy.bits .f32 = 32 ∨ (Rect.block (s := S1920x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x256.size a ≤ S1920x64x256.size a
  hwx0_1 : ∀ i : grid0.Coords, EltTy.bits .f32 = 32 ∨ (Rect.block (s := S1920x64x256) S128x64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S1920x512.size a
  hwx0_5 : ∀ i : grid0.Coords, EltTy.bits .f32 = 32 ∨ (Rect.block (s := S1920x512) S128x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S1920x64.size a
  hwx0_6 : ∀ i : grid0.Coords, EltTy.bits .f32 = 32 ∨ (Rect.block (s := S1920x64) S128x64.size (cc0_transform_6 i) (hinb0_6 i)).WholeWords (EltTy.packing .f32)

variable [Facts₀]

def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S128x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S128x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== Proof.LibBlockOps.lean ====
/-
  Vector operations of a row-blocked kernel read at an index, at the extended reals, for any extents: the product of
  an M x K by a K x N matrix into a zero accumulator as a sum over the contracted coordinate; sums and a maximum
  over one axis as sums and a fold over that axis's coordinate; the reshapes that add a unit axis and the
  broadcasts along a unit axis as the operand at the remaining coordinates.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibBlockOps

open Idealize.ShloMosaic Idealize.ShloMosaic.ValueIdx
open scoped BigOperators

/-- A dot record with the plain matrix-product dimension numbers IS the plain record: its fields are data, its
    well-formedness a proposition. -/
theorem dot_eq_plain {M K N : Nat} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = []) : D = DotDims.plain M K N := by
  cases D
  simp only at h1 h2 h3 h4 h5 h6
  subst h1 h2 h3 h4 h5 h6
  rfl

/-- The plain matrix product into the zero splat, at row `r` and column `c`: the sum over `k` of
    `lhs r k * rhs k c`. -/
theorem matmul_plain_apply (M K N : Nat) (prec : Option ContractPrecision) (lhs : FVec Ideal ⟨2, ![M, K]⟩ .f32)
    (rhs : FVec Ideal ⟨2, ![K, N]⟩ .f32) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply]
  rw [← Equiv.sum_comp (contrEquiv1 (DotDims.plain M K N) K rfl rfl).symm]
  refine Finset.sum_congr rfl fun k _ => ?_
  have hv := contrEquiv1_symm_val (DotDims.plain M K N) K rfl rfl k
  have hl : (DotDims.plain M K N).lhsIdx (ix2 r c) ((contrEquiv1 (DotDims.plain M K N) K rfl rfl).symm k) = ix2 r k := by
    funext a; apply Fin.ext
    match a with
    | ⟨0, _⟩ => rfl
    | ⟨1, _⟩ => exact hv
  have hr : (DotDims.plain M K N).rhsIdx (ix2 r c) ((contrEquiv1 (DotDims.plain M K N) K rfl rfl).symm k) = ix2 k c := by
    funext a; apply Fin.ext
    match a with
    | ⟨0, _⟩ => exact hv
    | ⟨1, _⟩ => rfl
  rw [hl, hr]

/-! ## Sums and a maximum over one axis -/

/-- The sum over the LAST axis of a rank-3 vector, at `(a, b)`. -/
theorem sum_last3_apply {A B C : Nat} (src : FVec Ideal ⟨3, ![A, B, C]⟩ .f32)
    (h : (⟨3, ![A, B, C]⟩ : Shape).Reduces [2] ⟨2, ![A, B]⟩) (hφ : FKind.Formats .f32)
    (hacc : (0x00000000#32 : BitVec 32) = FKind.add.neutral .f32 hφ) (a : Fin A) (b : Fin B) :
    multiReduction (F := Ideal) .add [2] ⟨2, ![A, B]⟩ src 0x00000000#32 h hφ hacc (ix2 a b) = ∑ c : Fin C, src (ix3 a b c) := by
  refine (Ideal.multiReduction_add_single src _ h hφ hacc (ix2 a b)).trans ?_
  refine Finset.sum_congr rfl fun c _ => congrArg src ?_
  funext d; apply Fin.ext
  match d with
  | ⟨0, _⟩ => rfl
  | ⟨1, _⟩ => rfl
  | ⟨2, _⟩ => rfl

/-- The sum over the MIDDLE axis of a rank-3 vector, at `(a, c)`. -/
theorem sum_mid3_apply {A B C : Nat} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = FKind.add.neutral .f32 hφ) (a : Fin A) (c : Fin C) :
    multiReduction (F := Ideal) .add [1] ⟨2, ![A, C]⟩ src 0x00000000#32 h hφ hacc (ix2 a c) = ∑ b : Fin B, src (ix3 a b c) := by
  refine (Ideal.multiReduction_add_single src _ h hφ hacc (ix2 a c)).trans ?_
  refine Finset.sum_congr rfl fun b _ => congrArg src ?_
  funext d; apply Fin.ext
  match d with
  | ⟨0, _⟩ => rfl
  | ⟨1, _⟩ => rfl
  | ⟨2, _⟩ => rfl

/-- The sum over the LAST axis of a matrix, at row `a`. -/
theorem sum_last2_apply {A B : Nat} (src : FVec Ideal ⟨2, ![A, B]⟩ .f32)
    (h : (⟨2, ![A, B]⟩ : Shape).Reduces [1] ⟨1, ![A]⟩) (hφ : FKind.Formats .f32)
    (hacc : (0x00000000#32 : BitVec 32) = FKind.add.neutral .f32 hφ) (a : Fin A) :
    multiReduction (F := Ideal) .add [1] ⟨1, ![A]⟩ src 0x00000000#32 h hφ hacc (ix1 a) = ∑ b : Fin B, src (ix2 a b) := by
  refine (Ideal.multiReduction_add_single src _ h hφ hacc (ix1 a)).trans ?_
  refine Finset.sum_congr rfl fun b _ => congrArg src ?_
  funext d; apply Fin.ext
  match d with
  | ⟨0, _⟩ => rfl
  | ⟨1, _⟩ => rfl

/-- The pattern of minus infinity denotes the bottom element. -/
theorem ofBits_neg_inf_f32 : Ideal.ofBits .f32 0xFF800000#32 = ⊥ := by simp [Ideal.ofBits, Ideal.ieee]

/-- The maximum over the LAST axis of a matrix from minus infinity, at row `a`: the fold of `max` from the bottom
    element over that row. -/
theorem max_last2_apply {A B : Nat} (src : FVec Ideal ⟨2, ![A, B]⟩ .f32)
    (h : (⟨2, ![A, B]⟩ : Shape).Reduces [1] ⟨1, ![A]⟩) (hφ : FKind.Formats .f32)
    (hacc : (0xFF800000#32 : BitVec 32) = FKind.maximumf.neutral .f32 hφ) (a : Fin A) :
    multiReduction (F := Ideal) .maximumf [1] ⟨1, ![A]⟩ src 0xFF800000#32 h hφ hacc (ix1 a)
      = (Finset.univ : Finset (Fin B)).fold max ⊥ fun b => src (ix2 a b) := by
  refine (Ideal.multiReduction_maximumf_single src _ h hφ hacc (ix1 a)).trans ?_
  rw [show FloatOps.ofBits (F := Ideal) .f32 0xFF800000#32 = ⊥ from ofBits_neg_inf_f32]
  refine congrArg (fun g => (Finset.univ : Finset (Fin B)).fold max ⊥ g) (funext fun b => congrArg src ?_)
  funext d; apply Fin.ext
  match d with
  | ⟨0, _⟩ => rfl
  | ⟨1, _⟩ => rfl

/-! ## Reshapes that add a unit axis, and broadcasts along it -/

/-- `[A, B] → [A, 1, B]`. -/
theorem cast_ab_a1b_apply {A B : Nat} {α : Type} (x : (⟨2, ![A, B]⟩ : Shape).Idx → α)
    (h : (⟨2, ![A, B]⟩ : Shape).ShapeCasts ⟨3, ![A, 1, B]⟩) (a : Fin A) (u : Fin 1) (b : Fin B) :
    shapeCast ⟨3, ![A, 1, B]⟩ x h (ix3 a u b) = x (ix2 a b) := by
  refine shapeCast_apply x h (ix3 a u b) (ix2 a b) ?_
  rw [Shape.rowMajor_val_two, Shape.rowMajor_val_three]
  show a.val * B + b.val = (a.val * 1 + u.val) * B + b.val
  have := u.isLt
  have hu : u.val = 0 := by omega
  rw [hu]; ring

/-- `[A] → [A, 1]`. -/
theorem cast_a_a1_apply {A : Nat} {α : Type} (x : (⟨1, ![A]⟩ : Shape).Idx → α)
    (h : (⟨1, ![A]⟩ : Shape).ShapeCasts ⟨2, ![A, 1]⟩) (a : Fin A) (u : Fin 1) :
    shapeCast ⟨2, ![A, 1]⟩ x h (ix2 a u) = x (ix1 a) := by
  refine shapeCast_apply x h (ix2 a u) (ix1 a) ?_
  rw [Shape.rowMajor_val_one, Shape.rowMajor_val_two]
  show a.val = a.val * 1 + u.val
  have := u.isLt
  omega

/-- `[A, B] → [A, B, 1]`. -/
theorem cast_ab_ab1_apply {A B : Nat} {α : Type} (x : (⟨2, ![A, B]⟩ : Shape).Idx → α)
    (h : (⟨2, ![A, B]⟩ : Shape).ShapeCasts ⟨3, ![A, B, 1]⟩) (a : Fin A) (b : Fin B) (u : Fin 1) :
    shapeCast ⟨3, ![A, B, 1]⟩ x h (ix3 a b u) = x (ix2 a b) := by
  refine shapeCast_apply x h (ix3 a b u) (ix2 a b) ?_
  rw [Shape.rowMajor_val_two, Shape.rowMajor_val_three]
  show a.val * B + b.val = (a.val * B + b.val) * 1 + u.val
  have := u.isLt
  omega

/-- `[A, 1, B] → [A, C, B]`: the middle coordinate is forgotten. -/
theorem bcast_a1b_acb_apply {A B C : Nat} {α : Type} (x : (⟨3, ![A, 1, B]⟩ : Shape).Idx → α)
    (h : (⟨3, ![A, 1, B]⟩ : Shape).Broadcasts ⟨3, ![A, C, B]⟩) (a : Fin A) (c : Fin C) (b : Fin B) :
    broadcastTo ⟨3, ![A, C, B]⟩ x h (ix3 a c b) = x (ix3 a (0 : Fin 1) b) := by
  refine broadcastTo_apply x h (ix3 a c b) (ix3 a (0 : Fin 1) b) ?_
  intro d
  match d with
  | ⟨0, _⟩ =>
    show a.val = if A = 1 then 0 else a.val
    split
    · have := a.isLt; omega
    · rfl
  | ⟨1, _⟩ => rfl
  | ⟨2, _⟩ =>
    show b.val = if B = 1 then 0 else b.val
    split
    · have := b.isLt; omega
    · rfl

/-- `[A, 1] → [A, B]`: the column coordinate is forgotten. -/
theorem bcast_a1_ab_apply {A B : Nat} {α : Type} (x : (⟨2, ![A, 1]⟩ : Shape).Idx → α)
    (h : (⟨2, ![A, 1]⟩ : Shape).Broadcasts ⟨2, ![A, B]⟩) (a : Fin A) (b : Fin B) :
    broadcastTo ⟨2, ![A, B]⟩ x h (ix2 a b) = x (ix2 a (0 : Fin 1)) := by
  refine broadcastTo_apply x h (ix2 a b) (ix2 a (0 : Fin 1)) ?_
  intro d
  match d with
  | ⟨0, _⟩ =>
    show a.val = if A = 1 then 0 else a.val
    split
    · have := a.isLt; omega
    · rfl
  | ⟨1, _⟩ => rfl

/-- `[A, B, 1] → [A, B, C]`: the last coordinate is forgotten. -/
theorem bcast_ab1_abc_apply {A B C : Nat} {α : Type} (x : (⟨3, ![A, B, 1]⟩ : Shape).Idx → α)
    (h : (⟨3, ![A, B, 1]⟩ : Shape).Broadcasts ⟨3, ![A, B, C]⟩) (a : Fin A) (b : Fin B) (c : Fin C) :
    broadcastTo ⟨3, ![A, B, C]⟩ x h (ix3 a b c) = x (ix3 a b (0 : Fin 1)) := by
  refine broadcastTo_apply x h (ix3 a b c) (ix3 a b (0 : Fin 1)) ?_
  intro d
  match d with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ => rfl

end Cert.LibBlockOps

end
-- ==== Proof.Spec.lean ====
/-
  The mathematics of soft dot-product attention, one batch row at a time, on the extended reals.

  For a row with query vector `h` (512 entries), context slab `ctx` (64 positions of 256 entries) and weights
  `W_in` (512 x 256), `W_c` (256 x 512), `W_h` (512 x 512):
    target d   = sum_k h k * W_in k d
    logit s    = sum_d ctx s d * target d
    M          = max_s logit s                      (a fold of max from the bottom element)
    e s        = exp (logit s - M)
    D          = sum_s e s
    attn s     = e s / D            (the quotient form)     or   e s * (1 / D)   (the reciprocal form)
    wctx d     = sum_s attn s * ctx s d
    pre j      = sum_{k<256} wctx k * W_c k j + sum_{k<512} h k * W_h k j      (the split form)
               = sum_{k<768} [wctx ; h] k * [W_c ; W_h] k j                     (the concatenated form)
    out j      = tanh (pre j)

  Two laws join the two programs. The concatenated product is the split one because a sum over 768 = 256 + 512
  indices is the sum over the first 256 plus the sum over the last 512: associativity and commutativity of
  addition only, valid on all extended reals. The reciprocal form of the softmax weights is the quotient form
  whenever the denominator D is a NONZERO REAL: then both are e s * (1/D). That needs the logits to be real
  numbers: then M is real, every e s is the exponential of a real, and D is a positive real. (With an infinite
  logit D can vanish, and 0 * (1/0) = 0 * top = 0 while 0 / 0 is bottom: the two forms differ there.)
-/
import Idealize.ShloMosaic.PureOps.Ideal
import Idealize.ShloMosaic.PureOps.Ideal.Laws
import Idealize.ShloMosaic.Lib.ValueIdx

noncomputable section

namespace Cert.SoftDot

open Idealize.ShloMosaic Idealize.ShloMosaic.ValueIdx
open scoped BigOperators

/-! ## One row -/

/-- The projected query: `target d = sum_k h k * W_in k d`. -/
def target (h : Fin 512 → EReal) (win : Fin 512 → Fin 256 → EReal) (d : Fin 256) : EReal :=
  ∑ k : Fin 512, h k * win k d

/-- The attention logit of position `s`: the dot product of its context vector with the target. -/
def logit (ctx : Fin 64 → Fin 256 → EReal) (tg : Fin 256 → EReal) (s : Fin 64) : EReal :=
  ∑ d : Fin 256, ctx s d * tg d

/-- The row's largest logit, as the fold of `max` from the bottom element. -/
def rowMax (l : Fin 64 → EReal) : EReal := (Finset.univ : Finset (Fin 64)).fold max ⊥ l

/-- The shifted exponentials. -/
def ex (l : Fin 64 → EReal) (s : Fin 64) : EReal := Ideal.exp (l s - rowMax l)

/-- Their sum, the softmax denominator. -/
def den (l : Fin 64 → EReal) : EReal := ∑ s : Fin 64, ex l s

/-- The softmax weights as a quotient. -/
def attnDiv (l : Fin 64 → EReal) (s : Fin 64) : EReal := Ideal.div (ex l s) (den l)

/-- The softmax weights as a product with the reciprocal of the denominator. -/
def attnMul (l : Fin 64 → EReal) (s : Fin 64) : EReal := ex l s * Ideal.div 1 (den l)

/-- The weighted context: `wctx d = sum_s a s * ctx s d`. -/
def wctx (a : Fin 64 → EReal) (ctx : Fin 64 → Fin 256 → EReal) (d : Fin 256) : EReal :=
  ∑ s : Fin 64, a s * ctx s d

/-- The output projection, split: the weighted context through `W_c` plus the query through `W_h`. -/
def preSplit (wc : Fin 256 → EReal) (h : Fin 512 → EReal) (woc : Fin 256 → Fin 512 → EReal)
    (woh : Fin 512 → Fin 512 → EReal) (j : Fin 512) : EReal :=
  (∑ k : Fin 256, wc k * woc k j) + ∑ k : Fin 512, h k * woh k j

/-- The row `[wctx ; h]` of 768 entries. -/
def catRow (wc : Fin 256 → EReal) (h : Fin 512 → EReal) (k : Fin 768) : EReal :=
  if hk : k.val < 256 then wc ⟨k.val, hk⟩ else h ⟨k.val - 256, by have := k.isLt; omega⟩

/-- The stacked weight `[W_c ; W_h]` of 768 rows. -/
def catMat (woc : Fin 256 → Fin 512 → EReal) (woh : Fin 512 → Fin 512 → EReal) (k : Fin 768) (j : Fin 512) : EReal :=
  if hk : k.val < 256 then woc ⟨k.val, hk⟩ j else woh ⟨k.val - 256, by have := k.isLt; omega⟩ j

/-- The output projection, concatenated: one product of the 768-entry row with a 768-row weight `w`. -/
def preCat (wc : Fin 256 → EReal) (h : Fin 512 → EReal) (w : Fin 768 → Fin 512 → EReal) (j : Fin 512) : EReal :=
  ∑ k : Fin 768, catRow wc h k * w k j

/-! ## The two laws -/

/-- A sum over 768 = 256 + 512 indices splits into its first 256 and its last 512 terms. -/
theorem preCat_catMat (wc : Fin 256 → EReal) (h : Fin 512 → EReal) (woc : Fin 256 → Fin 512 → EReal)
    (woh : Fin 512 → Fin 512 → EReal) (j : Fin 512) :
    preCat wc h (catMat woc woh) j = preSplit wc h woc woh j := by
  unfold preCat preSplit
  rw [show (∑ k : Fin 768, catRow wc h k * catMat woc woh k j)
      = ∑ k : Fin (256 + 512), catRow wc h k * catMat woc woh k j from rfl, Fin.sum_univ_add]
  refine congrArg₂ (· + ·) (Finset.sum_congr rfl fun k _ => ?_) (Finset.sum_congr rfl fun k _ => ?_)
  · have hk : (Fin.castAdd 512 k : Fin 768).val < 256 := k.isLt
    simp only [catRow, catMat, dif_pos hk]
    rfl
  · have hv : (Fin.natAdd 256 k : Fin 768).val = 256 + k.val := rfl
    have hk : ¬ (Fin.natAdd 256 k : Fin 768).val < 256 := by omega
    have he : (⟨(Fin.natAdd 256 k : Fin 768).val - 256, by have := k.isLt; omega⟩ : Fin 512) = k :=
      Fin.ext (by show (Fin.natAdd 256 k : Fin 768).val - 256 = k.val; omega)
    simp only [catRow, catMat, dif_neg hk, he]

/-- A finite sum of reals is a real. -/
theorem sum_real {ι : Type*} (t : Finset ι) (g : ι → EReal) (hg : ∀ i ∈ t, ∃ r : ℝ, g i = r) :
    ∃ r : ℝ, ∑ i ∈ t, g i = r := by
  classical
  revert hg
  refine Finset.induction_on t (fun _ => ⟨0, by simp⟩) ?_
  intro a s ha ih hg
  obtain ⟨r1, h1⟩ := hg a (Finset.mem_insert_self a s)
  obtain ⟨r2, h2⟩ := ih fun i hi => hg i (Finset.mem_insert_of_mem hi)
  exact ⟨r1 + r2, by rw [Finset.sum_insert ha, h1, h2, EReal.coe_add]⟩

/-- With real query and weight entries the target is real. -/
theorem target_real (h : Fin 512 → EReal) (win : Fin 512 → Fin 256 → EReal) (hh : ∀ k, ∃ r : ℝ, h k = r)
    (hw : ∀ k d, ∃ r : ℝ, win k d = r) (d : Fin 256) : ∃ r : ℝ, target h win d = r :=
  sum_real _ _ fun k _ => by
    obtain ⟨a, ha⟩ := hh k
    obtain ⟨b, hb⟩ := hw k d
    exact ⟨a * b, by rw [ha, hb, EReal.coe_mul]⟩

/-- With real context entries and a real target the logits are real. -/
theorem logit_real (ctx : Fin 64 → Fin 256 → EReal) (tg : Fin 256 → EReal) (hc : ∀ s d, ∃ r : ℝ, ctx s d = r)
    (ht : ∀ d, ∃ r : ℝ, tg d = r) (s : Fin 64) : ∃ r : ℝ, logit ctx tg s = r :=
  sum_real _ _ fun d _ => by
    obtain ⟨a, ha⟩ := hc s d
    obtain ⟨b, hb⟩ := ht d
    exact ⟨a * b, by rw [ha, hb, EReal.coe_mul]⟩

/-- The fold of `max` from the bottom element over reals is the bottom element or a real. -/
theorem fold_max_real {ι : Type*} (f : ι → ℝ) (t : Finset ι) :
    t.fold max (⊥ : EReal) (fun s => (f s : EReal)) = ⊥
      ∨ ∃ M : ℝ, t.fold max (⊥ : EReal) (fun s => (f s : EReal)) = M := by
  classical
  refine Finset.induction_on t (Or.inl Finset.fold_empty) ?_
  intro a s ha ih
  right
  rw [Finset.fold_insert ha]
  rcases ih with h | ⟨M, h⟩
  · exact ⟨f a, by rw [h, max_eq_left bot_le]⟩
  · exact ⟨max (f a) M, by rw [h]; exact (EReal.coe_strictMono.monotone.map_max).symm⟩

/-- The coercion of a finite sum of reals is the sum of the coercions. -/
theorem coe_sum {ι : Type*} (t : Finset ι) (g : ι → ℝ) : ((∑ i ∈ t, g i : ℝ) : EReal) = ∑ i ∈ t, (g i : EReal) := by
  classical
  refine Finset.induction_on t (by simp) ?_
  intro a s ha ih
  rw [Finset.sum_insert ha, Finset.sum_insert ha, EReal.coe_add, ih]

/-- For real logits the softmax denominator is a nonzero real, so multiplying by its reciprocal is dividing by it. -/
theorem attnMul_eq_attnDiv (l : Fin 64 → EReal) (hl : ∀ s, ∃ r : ℝ, l s = r) : attnMul l = attnDiv l := by
  choose f hf using hl
  obtain rfl : l = fun s => (f s : EReal) := funext hf
  -- the row maximum is a real: the fold is not the bottom element, since it is at least the first logit
  obtain ⟨M, hM⟩ : ∃ M : ℝ, rowMax (fun s => (f s : EReal)) = M := by
    rcases fold_max_real f (Finset.univ : Finset (Fin 64)) with h | h
    · exfalso
      have h0 : ((f 0 : ℝ) : EReal) ≤ (Finset.univ : Finset (Fin 64)).fold max ⊥ (fun s => (f s : EReal)) :=
        (Finset.le_fold_max _).2 (Or.inr ⟨0, Finset.mem_univ _, le_rfl⟩)
      rw [h] at h0
      exact EReal.coe_ne_bot _ (le_bot_iff.1 h0)
    · exact h
  -- so every shifted exponential is the exponential of a real
  have hex : ∀ s, ex (fun s => (f s : EReal)) s = ((Real.exp (f s - M) : ℝ) : EReal) := by
    intro s
    unfold ex
    rw [hM, ← EReal.coe_sub]
    rfl
  -- and the denominator is a positive real
  have hden : den (fun s => (f s : EReal)) = ((∑ s : Fin 64, Real.exp (f s - M) : ℝ) : EReal) := by
    unfold den
    rw [coe_sum]
    exact Finset.sum_congr rfl fun s _ => hex s
  have hpos : (∑ s : Fin 64, Real.exp (f s - M)) ≠ 0 :=
    (Finset.sum_pos (fun s _ => Real.exp_pos _) Finset.univ_nonempty).ne'
  funext s
  unfold attnMul attnDiv
  rw [hden, Ideal.div_coe hpos, Ideal.div_coe hpos, one_mul]

/-! ## The whole arrays -/

/-- Row `r` of a matrix. -/
def rowOf {a b : Nat} (X : FVec Ideal ⟨2, ![a, b]⟩ .f32) (r : Fin a) : Fin b → EReal := fun k => X (ix2 r k)

/-- A matrix as a function of its two coordinates. -/
def matOf {a b : Nat} (X : FVec Ideal ⟨2, ![a, b]⟩ .f32) : Fin a → Fin b → EReal := fun i j => X (ix2 i j)

/-- Slab `r` of a rank-3 array. -/
def slabOf {a b c : Nat} (X : FVec Ideal ⟨3, ![a, b, c]⟩ .f32) (r : Fin a) : Fin b → Fin c → EReal :=
  fun s d => X (ix3 r s d)

/-- The two coordinates of a matrix index, each typed by its own extent. -/
abbrev c0 {a b : Nat} (i : (⟨2, ![a, b]⟩ : Shape).Idx) : Fin a := ⟨(i 0).val, idx2_lt0 i⟩
abbrev c1 {a b : Nat} (i : (⟨2, ![a, b]⟩ : Shape).Idx) : Fin b := ⟨(i 1).val, idx2_lt1 i⟩

/-- The logits of batch row `b`. -/
def logitsAt {n : Nat} (H : FVec Ideal ⟨2, ![n, 512]⟩ .f32) (C : FVec Ideal ⟨3, ![n, 64, 256]⟩ .f32)
    (Win : FVec Ideal ⟨2, ![512, 256]⟩ .f32) (b : Fin n) : Fin 64 → EReal :=
  logit (slabOf C b) (target (rowOf H b) (matOf Win))

/-- The attention weights of the whole batch, quotient form. -/
def attnDivG {n : Nat} (H : FVec Ideal ⟨2, ![n, 512]⟩ .f32) (C : FVec Ideal ⟨3, ![n, 64, 256]⟩ .f32)
    (Win : FVec Ideal ⟨2, ![512, 256]⟩ .f32) : FVec Ideal ⟨2, ![n, 64]⟩ .f32 :=
  fun i => attnDiv (logitsAt H C Win (c0 i)) (c1 i)

/-- The attention weights of the whole batch, reciprocal form. -/
def attnMulG {n : Nat} (H : FVec Ideal ⟨2, ![n, 512]⟩ .f32) (C : FVec Ideal ⟨3, ![n, 64, 256]⟩ .f32)
    (Win : FVec Ideal ⟨2, ![512, 256]⟩ .f32) : FVec Ideal ⟨2, ![n, 64]⟩ .f32 :=
  fun i => attnMul (logitsAt H C Win (c0 i)) (c1 i)

/-- The output of the whole batch: quotient-form weights, split projection. -/
def outSplitG {n : Nat} (H : FVec Ideal ⟨2, ![n, 512]⟩ .f32) (C : FVec Ideal ⟨3, ![n, 64, 256]⟩ .f32)
    (Win : FVec Ideal ⟨2, ![512, 256]⟩ .f32) (Woc : FVec Ideal ⟨2, ![256, 512]⟩ .f32)
    (Woh : FVec Ideal ⟨2, ![512, 512]⟩ .f32) : FVec Ideal ⟨2, ![n, 512]⟩ .f32 :=
  fun i => Ideal.tanh (preSplit (wctx (attnDiv (logitsAt H C Win (c0 i))) (slabOf C (c0 i))) (rowOf H (c0 i))
    (matOf Woc) (matOf Woh) (c1 i))

/-- The output of the whole batch: reciprocal-form weights, concatenated projection against a 768-row weight `W`. -/
def outCatW {n : Nat} (H : FVec Ideal ⟨2, ![n, 512]⟩ .f32) (C : FVec Ideal ⟨3, ![n, 64, 256]⟩ .f32)
    (Win : FVec Ideal ⟨2, ![512, 256]⟩ .f32) (W : FVec Ideal ⟨2, ![768, 512]⟩ .f32) : FVec Ideal ⟨2, ![n, 512]⟩ .f32 :=
  fun i => Ideal.tanh (preCat (wctx (attnMul (logitsAt H C Win (c0 i))) (slabOf C (c0 i))) (rowOf H (c0 i))
    (matOf W) (c1 i))

/-- The output of the whole batch: reciprocal-form weights, concatenated projection against the stacked weight. -/
def outCatG {n : Nat} (H : FVec Ideal ⟨2, ![n, 512]⟩ .f32) (C : FVec Ideal ⟨3, ![n, 64, 256]⟩ .f32)
    (Win : FVec Ideal ⟨2, ![512, 256]⟩ .f32) (Woc : FVec Ideal ⟨2, ![256, 512]⟩ .f32)
    (Woh : FVec Ideal ⟨2, ![512, 512]⟩ .f32) : FVec Ideal ⟨2, ![n, 512]⟩ .f32 :=
  fun i => Ideal.tanh (preCat (wctx (attnMul (logitsAt H C Win (c0 i))) (slabOf C (c0 i))) (rowOf H (c0 i))
    (catMat (matOf Woc) (matOf Woh)) (c1 i))

/-- With every entry of `H`, `C` and `W_in` real, every logit is real. -/
theorem logitsAt_real {n : Nat} (H : FVec Ideal ⟨2, ![n, 512]⟩ .f32) (C : FVec Ideal ⟨3, ![n, 64, 256]⟩ .f32)
    (Win : FVec Ideal ⟨2, ![512, 256]⟩ .f32) (hH : ∀ i, ∃ r : ℝ, H i = r) (hC : ∀ i, ∃ r : ℝ, C i = r)
    (hW : ∀ i, ∃ r : ℝ, Win i = r) (b : Fin n) (s : Fin 64) : ∃ r : ℝ, logitsAt H C Win b s = r :=
  logit_real _ _ (fun _ _ => hC _) (target_real _ _ (fun _ => hH _) fun _ _ => hW _) s

/-- With every entry of `H`, `C` and `W_in` real, the two forms of the attention weights are one array. -/
theorem attnMulG_eq {n : Nat} (H : FVec Ideal ⟨2, ![n, 512]⟩ .f32) (C : FVec Ideal ⟨3, ![n, 64, 256]⟩ .f32)
    (Win : FVec Ideal ⟨2, ![512, 256]⟩ .f32) (hH : ∀ i, ∃ r : ℝ, H i = r) (hC : ∀ i, ∃ r : ℝ, C i = r)
    (hW : ∀ i, ∃ r : ℝ, Win i = r) : attnMulG H C Win = attnDivG H C Win := by
  funext i
  exact congrFun (attnMul_eq_attnDiv _ (logitsAt_real H C Win hH hC hW (c0 i))) (c1 i)

/-- And the two forms of the output are one array. -/
theorem outCatG_eq {n : Nat} (H : FVec Ideal ⟨2, ![n, 512]⟩ .f32) (C : FVec Ideal ⟨3, ![n, 64, 256]⟩ .f32)
    (Win : FVec Ideal ⟨2, ![512, 256]⟩ .f32) (Woc : FVec Ideal ⟨2, ![256, 512]⟩ .f32)
    (Woh : FVec Ideal ⟨2, ![512, 512]⟩ .f32) (hH : ∀ i, ∃ r : ℝ, H i = r) (hC : ∀ i, ∃ r : ℝ, C i = r)
    (hW : ∀ i, ∃ r : ℝ, Win i = r) : outCatG H C Win Woc Woh = outSplitG H C Win Woc Woh := by
  funext i
  unfold outCatG outSplitG
  rw [preCat_catMat, attnMul_eq_attnDiv _ (logitsAt_real H C Win hH hC hW (c0 i))]

end Cert.SoftDot

end
-- ==== Proof.Finite.lean ====
/-
  The precondition read: when the printed finiteness predicate is all ones, every entry of the query array, of the
  context array and of the input weight is a real number (its absolute value is below plus infinity, so it is
  neither infinity).
-/
import proofs.«117889_g2000304853130043_pallasbulk_1157_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Idealize.ShloMosaic.ValueIdx Cert.Pre_finite_inputs

/-- A rank-0 array has one index. -/
instance : Subsingleton S_.Idx := ⟨fun _ _ => funext fun d => d.elim0⟩

/-- An extended real whose absolute value compares below plus infinity is a real number: for either infinity the
    absolute value is plus infinity itself, which is not below plus infinity. -/
theorem real_of_abs_lt (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One array's `all (|a| < +inf)` being one makes every entry of the array real. -/
theorem real_of_all {s : Shape} (a : FVec Ideal s .f32) (hb : S_.BroadcastsInDim s (![] : Fin 0 → Fin s.rank))
    {axes : List (Fin s.rank)} (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu ix0 = 1#1) (i : s.Idx) : ∃ r : ℝ, a i = r :=
  real_of_abs_lt (a i) (Host.reduce_andi_all _ _ hr hu ix0 e i)

/-- Under the finiteness predicate the first three argument arrays hold real numbers only. -/
theorem real_of_pre [Cert.Pre_finite_inputs.Facts] (a0 : FVec Ideal S1920x512 .f32) (a1 : FVec Ideal S1920x64x256 .f32)
    (a2 : FVec Ideal S512x256 .f32) (a3 : FVec Ideal S256x512 .f32) (a4 : FVec Ideal S512x512 .f32)
    (h : Cert.Pre_finite_inputs.fn (F := Ideal) a0 a1 a2 a3 a4 = fun _ => 1#1) :
    (∀ i, ∃ r : ℝ, a0 i = r) ∧ (∀ i, ∃ r : ℝ, a1 i = r) ∧ (∀ i, ∃ r : ℝ, a2 i = r) := by
  have e := congrFun h ix0
  dsimp only [fn, fn_part1] at e
  -- the predicate is a conjunction of five `all`s, nested to the left
  obtain ⟨e4, -⟩ := IntOp.andi_eq_one.1 (show IntOp.andi _ _ = 1#1 from e)
  obtain ⟨e3, -⟩ := IntOp.andi_eq_one.1 (show IntOp.andi _ _ = 1#1 from e4)
  obtain ⟨e2, h2⟩ := IntOp.andi_eq_one.1 (show IntOp.andi _ _ = 1#1 from e3)
  obtain ⟨h0, h1⟩ := IntOp.andi_eq_one.1 (show IntOp.andi _ _ = 1#1 from e2)
  exact ⟨real_of_all a0 _ _ _ h0, real_of_all a1 _ _ _ h1, real_of_all a2 _ _ _ h2⟩

end Cert.Finite

end
-- ==== Proof.KernelPay.lean ====
/-
  What the attention kernel's body computes on one block of 240 batch rows, as whole-block functions of its loaded
  blocks: the stored attention weights are the row-wise softmax weights in the reciprocal form, and the stored
  output is the hyperbolic tangent of the concatenated projection, both read index by index.
-/
import proofs.«117889_g2000304853130043_pallasbulk_1157_2_alg».proof.Proof.Gen.KernelIdeal.Skeleton
import proofs.«117889_g2000304853130043_pallasbulk_1157_2_alg».proof.Proof.Spec
import Idealize.ShloMosaic.Lib.Pipeline.Value
import Idealize.ShloMosaic.Lib.IdealHost

noncomputable section

namespace Cert.KernelIdeal.Pay

open Cert.KernelIdeal Cert.KernelIdeal.Gen Idealize.ShloMosaic Idealize.ShloMosaic.ValueIdx
open scoped BigOperators

/-! ## Layout operations at an index -/

/-- A [240,256] array viewed as [240,1,256] reads (r, 0, d) at (r, d). -/
theorem cast_mid_apply {α : Type} (x : S240x256.Idx → α) (h : S240x256.ShapeCasts S240x1x256) (r : Fin 240) (z : Fin 1)
    (d : Fin 256) : shapeCast S240x1x256 x h (ix3 r z d) = x (ix2 r d) := by
  refine shapeCast_apply x h _ _ ?_
  rw [Shape.rowMajor_val_two, Shape.rowMajor_val_three]
  show r.val * 256 + d.val = (r.val * 1 + z.val) * 256 + d.val
  have := z.isLt
  omega

/-- A [240,1,256] array repeated along its middle axis reads (r, s, d) at (r, 0, d). -/
theorem bcast_mid_apply {α : Type} (x : S240x1x256.Idx → α) (h : S240x1x256.Broadcasts S240x64x256) (r : Fin 240)
    (s : Fin 64) (d : Fin 256) : broadcastTo S240x64x256 x h (ix3 r s d) = x (ix3 r 0 d) := by
  refine broadcastTo_apply x h _ _ fun a => ?_
  match a with
  | ⟨0, _⟩ => rfl
  | ⟨1, _⟩ => rfl
  | ⟨2, _⟩ => rfl

/-- A [240] array viewed as a [240,1] column reads (r, 0) at r. -/
theorem cast_col_apply {α : Type} (x : S240.Idx → α) (h : S240.ShapeCasts S240x1) (r : Fin 240) (z : Fin 1) :
    shapeCast S240x1 x h (ix2 r z) = x (ix1 r) := by
  refine shapeCast_apply x h _ _ ?_
  rw [Shape.rowMajor_val_one, Shape.rowMajor_val_two]
  show r.val = r.val * 1 + z.val
  have := z.isLt
  omega

/-- A [240,1] column repeated along the row reads (r, s) at (r, 0). -/
theorem bcast_col_apply {α : Type} (x : S240x1.Idx → α) (h : S240x1.Broadcasts S240x64) (r : Fin 240) (s : Fin 64) :
    broadcastTo S240x64 x h (ix2 r s) = x (ix2 r 0) := by
  refine broadcastTo_apply x h _ _ fun a => ?_
  match a with
  | ⟨0, _⟩ => rfl
  | ⟨1, _⟩ => rfl

/-- A [240,64] array viewed as [240,64,1] reads (r, s, 0) at (r, s). -/
theorem cast_last_apply {α : Type} (x : S240x64.Idx → α) (h : S240x64.ShapeCasts S240x64x1) (r : Fin 240) (s : Fin 64)
    (z : Fin 1) : shapeCast S240x64x1 x h (ix3 r s z) = x (ix2 r s) := by
  refine shapeCast_apply x h _ _ ?_
  rw [Shape.rowMajor_val_two, Shape.rowMajor_val_three]
  show r.val * 64 + s.val = (r.val * 64 + s.val) * 1 + z.val
  have := z.isLt
  omega

/-- A [240,64,1] array repeated along its last axis reads (r, s, d) at (r, s, 0). -/
theorem bcast_last_apply {α : Type} (x : S240x64x1.Idx → α) (h : S240x64x1.Broadcasts S240x64x256) (r : Fin 240)
    (s : Fin 64) (d : Fin 256) : broadcastTo S240x64x256 x h (ix3 r s d) = x (ix3 r s 0) := by
  refine broadcastTo_apply x h _ _ fun a => ?_
  match a with
  | ⟨0, _⟩ => rfl
  | ⟨1, _⟩ => rfl
  | ⟨2, _⟩ => rfl

/-! ## Reductions at an index -/

/-- The sum over the last axis of a [240,64,256] array at (r, s). -/
theorem sum_last_apply (x : FVec Ideal S240x64x256 .f32) (h : S240x64x256.Reduces [2] S240x64) (hφ : FKind.Formats .f32)
    (hacc : (0x00000000#32 : BitVec 32) = 0x00000000#32) (r : Fin 240) (s : Fin 64) :
    multiReduction (F := Ideal) .add [2] S240x64 x 0x00000000#32 h hφ hacc (ix2 r s) = ∑ d : Fin 256, x (ix3 r s d) := by
  refine (Ideal.multiReduction_add_single x 0x00000000#32 h hφ hacc (ix2 r s)).trans ?_
  refine Finset.sum_congr rfl fun d _ => congrArg x (funext fun a => Fin.ext ?_)
  match a with
  | ⟨0, _⟩ => rfl
  | ⟨1, _⟩ => rfl
  | ⟨2, _⟩ => rfl

/-- The sum over the middle axis of a [240,64,256] array at (r, d). -/
theorem sum_mid_apply (x : FVec Ideal S240x64x256 .f32) (h : S240x64x256.Reduces [1] S240x256) (hφ : FKind.Formats .f32)
    (hacc : (0x00000000#32 : BitVec 32) = 0x00000000#32) (r : Fin 240) (d : Fin 256) :
    multiReduction (F := Ideal) .add [1] S240x256 x 0x00000000#32 h hφ hacc (ix2 r d) = ∑ s : Fin 64, x (ix3 r s d) := by
  refine (Ideal.multiReduction_add_single x 0x00000000#32 h hφ hacc (ix2 r d)).trans ?_
  refine Finset.sum_congr rfl fun s _ => congrArg x (funext fun a => Fin.ext ?_)
  match a with
  | ⟨0, _⟩ => rfl
  | ⟨1, _⟩ => rfl
  | ⟨2, _⟩ => rfl

/-- The sum over the row of a [240,64] array at r. -/
theorem sum_row_apply (x : FVec Ideal S240x64 .f32) (h : S240x64.Reduces [1] S240) (hφ : FKind.Formats .f32)
    (hacc : (0x00000000#32 : BitVec 32) = 0x00000000#32) (r : Fin 240) :
    multiReduction (F := Ideal) .add [1] S240 x 0x00000000#32 h hφ hacc (ix1 r) = ∑ s : Fin 64, x (ix2 r s) := by
  refine (Ideal.multiReduction_add_single x 0x00000000#32 h hφ hacc (ix1 r)).trans ?_
  refine Finset.sum_congr rfl fun s _ => congrArg x (funext fun a => Fin.ext ?_)
  match a with
  | ⟨0, _⟩ => rfl
  | ⟨1, _⟩ => rfl

/-- The f32 pattern of minus infinity is the bottom element. -/
theorem ofBits_neg_inf : Ideal.ofBits .f32 0xFF800000#32 = (⊥ : EReal) := by
  simp [Ideal.ofBits, Ideal.ieee]

/-- The maximum over the row of a [240,64] array at r, as the fold of max from the bottom element. -/
theorem max_row_apply (x : FVec Ideal S240x64 .f32) (h : S240x64.Reduces [1] S240) (hφ : FKind.Formats .f32)
    (hacc : (0xFF800000#32 : BitVec 32) = 0xFF800000#32) (r : Fin 240) :
    multiReduction (F := Ideal) .maximumf [1] S240 x 0xFF800000#32 h hφ hacc (ix1 r)
      = (Finset.univ : Finset (Fin 64)).fold max (⊥ : EReal) (fun s => x (ix2 r s)) := by
  refine (Ideal.multiReduction_maximumf_single x 0xFF800000#32 h hφ hacc (ix1 r)).trans ?_
  have hf : (x ∘ h.lift (ix1 r)) = fun s : Fin 64 => x (ix2 r s) :=
    funext fun s => congrArg x (funext fun a => Fin.ext (match a with | ⟨0, _⟩ => rfl | ⟨1, _⟩ => rfl))
  exact congrArg₂ (fun (b : EReal) (f : Fin 64 → EReal) => (Finset.univ : Finset (Fin 64)).fold max b f) ofBits_neg_inf hf

/-! ## The two products at an index -/

/-- The first product's operand indices at output index j and contraction index k: (j 0, k) and (k, j 1). -/
theorem lhs1_0 (j : S240x256.Idx) (k : dot_S240x512_S512x256_S240x256_1_0_0_1_n_n.contr.Idx) :
    (dot_S240x512_S512x256_S240x256_1_0_0_1_n_n.lhsIdx j k 0).val = (j 0).val := by
  unfold DotDims.lhsIdx
  rw [dif_neg (show ¬(0 : Fin S240x512.rank) ∈ dot_S240x512_S512x256_S240x256_1_0_0_1_n_n.lhsBatch by decide),
    dif_pos (show (0 : Fin S240x512.rank) ∈ dot_S240x512_S512x256_S240x256_1_0_0_1_n_n.lhsNonContracting by decide)]
  rfl

theorem lhs1_1 (j : S240x256.Idx) (k : dot_S240x512_S512x256_S240x256_1_0_0_1_n_n.contr.Idx) :
    (dot_S240x512_S512x256_S240x256_1_0_0_1_n_n.lhsIdx j k 1).val = (k ⟨0, by decide⟩).val :=
  DotDims.lhsIdx_val_of_single _ rfl j k

theorem rhs1_0 (j : S240x256.Idx) (k : dot_S240x512_S512x256_S240x256_1_0_0_1_n_n.contr.Idx) :
    (dot_S240x512_S512x256_S240x256_1_0_0_1_n_n.rhsIdx j k 0).val = (k ⟨0, by decide⟩).val :=
  DotDims.rhsIdx_val_of_single _ rfl j k

theorem rhs1_1 (j : S240x256.Idx) (k : dot_S240x512_S512x256_S240x256_1_0_0_1_n_n.contr.Idx) :
    (dot_S240x512_S512x256_S240x256_1_0_0_1_n_n.rhsIdx j k 1).val = (j 1).val := by
  unfold DotDims.rhsIdx
  rw [dif_neg (show ¬(1 : Fin S512x256.rank) ∈ dot_S240x512_S512x256_S240x256_1_0_0_1_n_n.rhsBatch by decide),
    dif_pos (show (1 : Fin S512x256.rank) ∈ dot_S240x512_S512x256_S240x256_1_0_0_1_n_n.rhsNonContracting by decide)]
  rfl

/-- The first product at (r, d): the sum over the 512 contracted entries. -/
theorem matmul1_apply (x0 : FVec Ideal S240x512 .f32) (x2 : FVec Ideal S512x256 .f32) (r : Fin 240) (d : Fin 256) :
    matmul dot_S240x512_S512x256_S240x256_1_0_0_1_n_n none x0 x2 (constant (F := Ideal) S240x256 .f32 0x00000000#32) (ix2 r d)
      = ∑ k : Fin 512, x0 (ix2 r k) * x2 (ix2 k d) := by
  refine (Ideal.matmul_constant_zero_apply dot_S240x512_S512x256_S240x256_1_0_0_1_n_n none x0 x2 (ix2 r d)).trans ?_
  rw [← Equiv.sum_comp (contrEquiv1 dot_S240x512_S512x256_S240x256_1_0_0_1_n_n 512 rfl rfl).symm]
  refine Finset.sum_congr rfl fun k _ => ?_
  refine congrArg₂ (· * ·) (congrArg x0 (funext fun a => Fin.ext ?_)) (congrArg x2 (funext fun a => Fin.ext ?_))
  · match a with
    | ⟨0, _⟩ => exact lhs1_0 _ _
    | ⟨1, _⟩ => exact (lhs1_1 _ _).trans (contrEquiv1_symm_val dot_S240x512_S512x256_S240x256_1_0_0_1_n_n 512 rfl rfl k)
  · match a with
    | ⟨0, _⟩ => exact (rhs1_0 _ _).trans (contrEquiv1_symm_val dot_S240x512_S512x256_S240x256_1_0_0_1_n_n 512 rfl rfl k)
    | ⟨1, _⟩ => exact rhs1_1 _ _

/-! ## The logits -/

/-- The kernel's logits: the query projected, spread over the positions, multiplied into the context and summed. -/
def logitsV (x0 : FVec Ideal S240x512 .f32) (x1 : FVec Ideal S240x64x256 .f32) (x2 : FVec Ideal S512x256 .f32) :
    FVec Ideal S240x64 .f32 :=
  multiReduction (F := Ideal) .add [2] S240x64
    (mulf x1 (broadcastTo S240x64x256
      (shapeCast S240x1x256
        (matmul dot_S240x512_S512x256_S240x256_1_0_0_1_n_n none x0 x2 (constant (F := Ideal) S240x256 .f32 0x00000000#32))
        shapeCasts_S240x256_S240x1x256)
      broadcasts_S240x1x256_S240x64x256))
    0x00000000#32 reduces_S240x64x256_S240x64 (.inl rfl) rfl

/-- Row r of the kernel's logits is the row's logits. -/
theorem logitsV_row (x0 : FVec Ideal S240x512 .f32) (x1 : FVec Ideal S240x64x256 .f32) (x2 : FVec Ideal S512x256 .f32)
    (r : Fin 240) : (fun s : Fin 64 => logitsV x0 x1 x2 (ix2 r s)) = Cert.SoftDot.logitsAt x0 x1 x2 r := by
  funext s
  unfold logitsV
  refine (sum_last_apply _ _ _ _ r s).trans ?_
  show _ = ∑ d : Fin 256, x1 (ix3 r s d) * ∑ k : Fin 512, x0 (ix2 r k) * x2 (ix2 k d)
  refine Finset.sum_congr rfl fun d _ => ?_
  refine congrArg (x1 (ix3 r s d) * ·) ?_
  exact (bcast_mid_apply _ _ r s d).trans ((cast_mid_apply _ _ r 0 d).trans (matmul1_apply x0 x2 r d))

/-! ## The softmax weights -/

/-- The kernel's softmax of a logits array, in the reciprocal form. -/
def softV (l : FVec Ideal S240x64 .f32) : FVec Ideal S240x64 .f32 :=
  have v8 : FVec Ideal S240 .f32 := multiReduction (F := Ideal) .maximumf [1] S240 l 0xFF800000#32 reduces_S240x64_S240 (.inl rfl) rfl
  have v9 : FVec Ideal S240x1 .f32 := shapeCast S240x1 v8 shapeCasts_S240_S240x1
  have v10 : FVec Ideal S240x64 .f32 := broadcastTo S240x64 v9 broadcasts_S240x1_S240x64
  have v11 : FVec Ideal S240x64 .f32 := subf l v10
  have v12 : FVec Ideal S240x64 .f32 := exp v11
  have v13 : FVec Ideal S240 .f32 := multiReduction (F := Ideal) .add [1] S240 v12 0x00000000#32 reduces_S240x64_S240 (.inl rfl) rfl
  have v14 : FVec Ideal S240x1 .f32 := shapeCast S240x1 v13 shapeCasts_S240_S240x1
  have cst_9 : Ideal .f32 := Scalar.ofBits .f32 0x3F800000#32
  have v15 : FVec Ideal S240x1 .f32 := broadcast S240x1 cst_9
  have v16 : FVec Ideal S240x1 .f32 := divf v15 v14
  have v17 : FVec Ideal S240x64 .f32 := broadcastTo S240x64 v16 broadcasts_S240x1_S240x64
  mulf v12 v17

/-- A row's maximum, spread back over the row. -/
theorem rowMax_apply (l : FVec Ideal S240x64 .f32) (r : Fin 240) (s : Fin 64) :
    broadcastTo S240x64 (shapeCast S240x1
      (multiReduction (F := Ideal) .maximumf [1] S240 l 0xFF800000#32 reduces_S240x64_S240 (.inl rfl) rfl)
      shapeCasts_S240_S240x1) broadcasts_S240x1_S240x64 (ix2 r s) = Cert.SoftDot.rowMax (fun s => l (ix2 r s)) :=
  (bcast_col_apply _ _ r s).trans ((cast_col_apply _ _ r 0).trans (max_row_apply l _ _ _ r))

/-- The shifted exponentials of a row. -/
theorem ex_apply (l : FVec Ideal S240x64 .f32) (r : Fin 240) (s : Fin 64) :
    exp (subf l (broadcastTo S240x64 (shapeCast S240x1
      (multiReduction (F := Ideal) .maximumf [1] S240 l 0xFF800000#32 reduces_S240x64_S240 (.inl rfl) rfl)
      shapeCasts_S240_S240x1) broadcasts_S240x1_S240x64)) (ix2 r s) = Cert.SoftDot.ex (fun s => l (ix2 r s)) s := by
  show Ideal.exp (l (ix2 r s) - _) = Ideal.exp (l (ix2 r s) - Cert.SoftDot.rowMax (fun s => l (ix2 r s)))
  exact congrArg (fun m => Ideal.exp (l (ix2 r s) - m)) (rowMax_apply l r s)

/-- The kernel's softmax at (r, s) is the reciprocal-form weight of row r at s. -/
theorem softV_apply (l : FVec Ideal S240x64 .f32) (r : Fin 240) (s : Fin 64) :
    softV l (ix2 r s) = Cert.SoftDot.attnMul (fun s => l (ix2 r s)) s := by
  unfold softV Cert.SoftDot.attnMul
  refine congrArg₂ (· * ·) (ex_apply l r s) ?_
  refine (bcast_col_apply _ _ r s).trans ?_
  show Ideal.div (Ideal.ofBits .f32 0x3F800000#32) _ = Ideal.div 1 (Cert.SoftDot.den (fun s => l (ix2 r s)))
  refine congrArg₂ Ideal.div Ideal.ofBits_one_f32 ?_
  refine (cast_col_apply _ _ r 0).trans ((sum_row_apply _ _ _ _ r).trans ?_)
  exact Finset.sum_congr rfl fun s' _ => ex_apply l r s'

/-- The attention-weights payload is the softmax of the logits. -/
theorem pay1_split (x0 : FVec Ideal S240x512 .f32) (x1 : FVec Ideal S240x64x256 .f32) (x2 : FVec Ideal S512x256 .f32) :
    k0_pay1 (F := Ideal) x0 x1 x2 = softV (logitsV x0 x1 x2) := rfl

/-- The attention-weights payload on a block is the reciprocal-form softmax of the block's rows. -/
theorem pay1_eq (x0 : FVec Ideal S240x512 .f32) (x1 : FVec Ideal S240x64x256 .f32) (x2 : FVec Ideal S512x256 .f32) :
    k0_pay1 (F := Ideal) x0 x1 x2 = Cert.SoftDot.attnMulG x0 x1 x2 := by
  funext i
  obtain ⟨r, s, rfl⟩ : ∃ (r : Fin 240) (s : Fin 64), i = ix2 r s := ⟨i 0, i 1, eq_ix2 i⟩
  rw [pay1_split]
  refine (softV_apply _ r s).trans ?_
  rw [logitsV_row]
  rfl

/-! ## The output -/

/-- The second product's operand indices at output index j and contraction index k: (j 0, k) and (k, j 1). -/
theorem lhs2_0 (j : S240x512.Idx) (k : dot_S240x768_S768x512_S240x512_1_0_0_1_n_n.contr.Idx) :
    (dot_S240x768_S768x512_S240x512_1_0_0_1_n_n.lhsIdx j k 0).val = (j 0).val := by
  unfold DotDims.lhsIdx
  rw [dif_neg (show ¬(0 : Fin S240x768.rank) ∈ dot_S240x768_S768x512_S240x512_1_0_0_1_n_n.lhsBatch by decide),
    dif_pos (show (0 : Fin S240x768.rank) ∈ dot_S240x768_S768x512_S240x512_1_0_0_1_n_n.lhsNonContracting by decide)]
  rfl

theorem lhs2_1 (j : S240x512.Idx) (k : dot_S240x768_S768x512_S240x512_1_0_0_1_n_n.contr.Idx) :
    (dot_S240x768_S768x512_S240x512_1_0_0_1_n_n.lhsIdx j k 1).val = (k ⟨0, by decide⟩).val :=
  DotDims.lhsIdx_val_of_single _ rfl j k

theorem rhs2_0 (j : S240x512.Idx) (k : dot_S240x768_S768x512_S240x512_1_0_0_1_n_n.contr.Idx) :
    (dot_S240x768_S768x512_S240x512_1_0_0_1_n_n.rhsIdx j k 0).val = (k ⟨0, by decide⟩).val :=
  DotDims.rhsIdx_val_of_single _ rfl j k

theorem rhs2_1 (j : S240x512.Idx) (k : dot_S240x768_S768x512_S240x512_1_0_0_1_n_n.contr.Idx) :
    (dot_S240x768_S768x512_S240x512_1_0_0_1_n_n.rhsIdx j k 1).val = (j 1).val := by
  unfold DotDims.rhsIdx
  rw [dif_neg (show ¬(1 : Fin S768x512.rank) ∈ dot_S240x768_S768x512_S240x512_1_0_0_1_n_n.rhsBatch by decide),
    dif_pos (show (1 : Fin S768x512.rank) ∈ dot_S240x768_S768x512_S240x512_1_0_0_1_n_n.rhsNonContracting by decide)]
  rfl

/-- The second product at (r, j): the sum over the 768 contracted entries. -/
theorem matmul2_apply (y : FVec Ideal S240x768 .f32) (w : FVec Ideal S768x512 .f32) (r : Fin 240) (j : Fin 512) :
    matmul dot_S240x768_S768x512_S240x512_1_0_0_1_n_n none y w (constant (F := Ideal) S240x512 .f32 0x00000000#32) (ix2 r j)
      = ∑ k : Fin 768, y (ix2 r k) * w (ix2 k j) := by
  refine (Ideal.matmul_constant_zero_apply dot_S240x768_S768x512_S240x512_1_0_0_1_n_n none y w (ix2 r j)).trans ?_
  rw [← Equiv.sum_comp (contrEquiv1 dot_S240x768_S768x512_S240x512_1_0_0_1_n_n 768 rfl rfl).symm]
  refine Finset.sum_congr rfl fun k _ => ?_
  refine congrArg₂ (· * ·) (congrArg y (funext fun a => Fin.ext ?_)) (congrArg w (funext fun a => Fin.ext ?_))
  · match a with
    | ⟨0, _⟩ => exact lhs2_0 _ _
    | ⟨1, _⟩ => exact (lhs2_1 _ _).trans (contrEquiv1_symm_val dot_S240x768_S768x512_S240x512_1_0_0_1_n_n 768 rfl rfl k)
  · match a with
    | ⟨0, _⟩ => exact (rhs2_0 _ _).trans (contrEquiv1_symm_val dot_S240x768_S768x512_S240x512_1_0_0_1_n_n 768 rfl rfl k)
    | ⟨1, _⟩ => exact rhs2_1 _ _

/-- The weighted context beside the query, at (r, k): the 768-entry row of the concatenated projection. -/
theorem cat_apply (y : FVec Ideal S240x256 .f32) (x0 : FVec Ideal S240x512 .f32)
    (h : Shape.Concatenates [S240x256, S240x512] S240x768 1) (r : Fin 240) (k : Fin 768) :
    concatenate S240x768 1 [⟨S240x256, y⟩, ⟨S240x512, x0⟩] h (ix2 r k)
      = Cert.SoftDot.catRow (fun d => y (ix2 r d)) (fun k => x0 (ix2 r k)) k := by
  unfold Cert.SoftDot.catRow
  by_cases hk : k.val < 256
  · rw [dif_pos hk]
    refine concatenate_pair_apply_left (t := S240x768) (s₁ := S240x256) (s₂ := S240x512) 1 y x0 h (ix2 r k) rfl
      (ix2 r ⟨k.val, hk⟩) fun b => ?_
    match b with
    | ⟨0, _⟩ => rfl
    | ⟨1, _⟩ => rfl
  · rw [dif_neg hk]
    refine concatenate_pair_apply_right (t := S240x768) (s₁ := S240x256) (s₂ := S240x512) 1 y x0 h (ix2 r k) rfl rfl
      (ix2 r ⟨k.val - 256, by have := k.isLt; omega⟩) (fun b hb => ?_) ?_
    · match b, hb with
      | ⟨0, _⟩, _ => rfl
      | ⟨1, _⟩, hb => exact absurd rfl hb
    · show (k.val - 256) + 256 = k.val
      omega

/-- The kernel's output from its attention weights. -/
def outV (a : FVec Ideal S240x64 .f32) (x0 : FVec Ideal S240x512 .f32) (x1 : FVec Ideal S240x64x256 .f32)
    (x3 : FVec Ideal S768x512 .f32) : FVec Ideal S240x512 .f32 :=
  have v19 : FVec Ideal S240x64x1 .f32 := shapeCast S240x64x1 a shapeCasts_S240x64_S240x64x1
  have v20 : FVec Ideal S240x64x256 .f32 := broadcastTo S240x64x256 v19 broadcasts_S240x64x1_S240x64x256
  have v21 : FVec Ideal S240x64x256 .f32 := mulf v20 x1
  have v22 : FVec Ideal S240x256 .f32 := multiReduction (F := Ideal) .add [1] S240x256 v21 0x00000000#32 reduces_S240x64x256_S240x256 (.inl rfl) rfl
  have v23 : FVec Ideal S240x768 .f32 := concatenate S240x768 1 [⟨S240x256, v22⟩, ⟨S240x512, x0⟩] concatenates_S240x256_S240x512_S240x768_d1
  have v25 : FVec Ideal S768x512 .f32 := shapeCast S768x512 x3 shapeCasts_S768x512_S768x512
  have cst_13 : FVec Ideal S240x512 .f32 := constant (F := Ideal) S240x512 .f32 0x00000000#32
  have v26 : FVec Ideal S240x512 .f32 := matmul dot_S240x768_S768x512_S240x512_1_0_0_1_n_n none v23 v25 cst_13
  tanh v26

/-- The weighted context at (r, d). -/
theorem wctx_apply (a : FVec Ideal S240x64 .f32) (x1 : FVec Ideal S240x64x256 .f32) (r : Fin 240) (d : Fin 256) :
    multiReduction (F := Ideal) .add [1] S240x256
      (mulf (broadcastTo S240x64x256 (shapeCast S240x64x1 a shapeCasts_S240x64_S240x64x1) broadcasts_S240x64x1_S240x64x256) x1)
      0x00000000#32 reduces_S240x64x256_S240x256 (.inl rfl) rfl (ix2 r d)
      = Cert.SoftDot.wctx (fun s => a (ix2 r s)) (Cert.SoftDot.slabOf x1 r) d := by
  refine (sum_mid_apply _ _ _ _ r d).trans ?_
  show _ = ∑ s : Fin 64, a (ix2 r s) * x1 (ix3 r s d)
  refine Finset.sum_congr rfl fun s _ => ?_
  refine congrArg (· * x1 (ix3 r s d)) ?_
  exact (bcast_last_apply _ _ r s d).trans (cast_last_apply _ _ r s 0)

/-- The kernel's output at (r, j). -/
theorem outV_apply (a : FVec Ideal S240x64 .f32) (x0 : FVec Ideal S240x512 .f32) (x1 : FVec Ideal S240x64x256 .f32)
    (x3 : FVec Ideal S768x512 .f32) (r : Fin 240) (j : Fin 512) :
    outV a x0 x1 x3 (ix2 r j)
      = Ideal.tanh (Cert.SoftDot.preCat (Cert.SoftDot.wctx (fun s => a (ix2 r s)) (Cert.SoftDot.slabOf x1 r))
          (Cert.SoftDot.rowOf x0 r) (Cert.SoftDot.matOf x3) j) := by
  unfold outV Cert.SoftDot.preCat
  refine congrArg Ideal.tanh ?_
  refine (matmul2_apply _ _ r j).trans ?_
  refine Finset.sum_congr rfl fun k _ => ?_
  refine congrArg₂ (· * ·) ?_ (congrFun (shapeCast_self x3 _) (ix2 k j))
  refine (cat_apply _ x0 _ r k).trans ?_
  exact congrArg (fun wc => Cert.SoftDot.catRow wc (Cert.SoftDot.rowOf x0 r) k) (funext fun d => wctx_apply a x1 r d)

/-- The output payload is the output computed from the attention-weights payload. -/
theorem pay2_split (x0 : FVec Ideal S240x512 .f32) (x1 : FVec Ideal S240x64x256 .f32) (x2 : FVec Ideal S512x256 .f32)
    (x3 : FVec Ideal S768x512 .f32) :
    k0_pay2 (F := Ideal) x0 x1 x2 x3 = outV (k0_pay1 (F := Ideal) x0 x1 x2) x0 x1 x3 := rfl

/-- The output payload on a block is the tanh of the concatenated projection of the block's rows. -/
theorem pay2_eq (x0 : FVec Ideal S240x512 .f32) (x1 : FVec Ideal S240x64x256 .f32) (x2 : FVec Ideal S512x256 .f32)
    (x3 : FVec Ideal S768x512 .f32) :
    k0_pay2 (F := Ideal) x0 x1 x2 x3 = Cert.SoftDot.outCatW x0 x1 x2 x3 := by
  funext i
  obtain ⟨r, j, rfl⟩ : ∃ (r : Fin 240) (j : Fin 512), i = ix2 r j := ⟨i 0, i 1, eq_ix2 i⟩
  rw [pay2_split, pay1_eq]
  exact outV_apply _ x0 x1 x3 r j

end Cert.KernelIdeal.Pay

end
-- ==== Proof.KernelValue.lean ====
/-
  The attention kernel's run read as values: its eight grid points each write back one block of 240 batch rows,
  the blocks tile the batch axis, and each row's result depends on that row of the inputs only, so after the run
  the two result arrays are the whole-batch functions of the argument arrays.
-/
import proofs.«117889_g2000304853130043_pallasbulk_1157_2_alg».proof.Proof.Gen.KernelIdeal.Value
import proofs.«117889_g2000304853130043_pallasbulk_1157_2_alg».proof.Proof.Spec
import proofs.«117889_g2000304853130043_pallasbulk_1157_2_alg».proof.Proof.KernelPay

noncomputable section

namespace Cert.KernelIdeal.Val

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The zero offsets of a whole-block rectangle, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## A row's result depends on that row of the inputs only -/

/-- The output at an index depends on the query and context arrays through the index's row and slab only. -/
theorem outCatW_row {n n' : Nat} (H : FVec Ideal ⟨2, ![n, 512]⟩ .f32) (C : FVec Ideal ⟨3, ![n, 64, 256]⟩ .f32)
    (H' : FVec Ideal ⟨2, ![n', 512]⟩ .f32) (C' : FVec Ideal ⟨3, ![n', 64, 256]⟩ .f32)
    (Win : FVec Ideal ⟨2, ![512, 256]⟩ .f32) (W : FVec Ideal ⟨2, ![768, 512]⟩ .f32)
    (i : (⟨2, ![n, 512]⟩ : Shape).Idx) (i' : (⟨2, ![n', 512]⟩ : Shape).Idx)
    (hr : Cert.SoftDot.rowOf H (Cert.SoftDot.c0 i) = Cert.SoftDot.rowOf H' (Cert.SoftDot.c0 i'))
    (hs : Cert.SoftDot.slabOf C (Cert.SoftDot.c0 i) = Cert.SoftDot.slabOf C' (Cert.SoftDot.c0 i'))
    (h1 : Cert.SoftDot.c1 i = Cert.SoftDot.c1 i') :
    Cert.SoftDot.outCatW H C Win W i = Cert.SoftDot.outCatW H' C' Win W i' := by
  show Ideal.tanh (Cert.SoftDot.preCat (Cert.SoftDot.wctx (Cert.SoftDot.attnMul (Cert.SoftDot.logit
      (Cert.SoftDot.slabOf C (Cert.SoftDot.c0 i)) (Cert.SoftDot.target (Cert.SoftDot.rowOf H (Cert.SoftDot.c0 i)) (Cert.SoftDot.matOf Win))))
      (Cert.SoftDot.slabOf C (Cert.SoftDot.c0 i))) (Cert.SoftDot.rowOf H (Cert.SoftDot.c0 i)) (Cert.SoftDot.matOf W) (Cert.SoftDot.c1 i))
    = Ideal.tanh (Cert.SoftDot.preCat (Cert.SoftDot.wctx (Cert.SoftDot.attnMul (Cert.SoftDot.logit
      (Cert.SoftDot.slabOf C' (Cert.SoftDot.c0 i')) (Cert.SoftDot.target (Cert.SoftDot.rowOf H' (Cert.SoftDot.c0 i')) (Cert.SoftDot.matOf Win))))
      (Cert.SoftDot.slabOf C' (Cert.SoftDot.c0 i'))) (Cert.SoftDot.rowOf H' (Cert.SoftDot.c0 i')) (Cert.SoftDot.matOf W) (Cert.SoftDot.c1 i'))
  rw [hr, hs, h1]

/-- The attention weight at an index depends on the query and context arrays through the index's row and slab only. -/
theorem attnMulG_row {n n' : Nat} (H : FVec Ideal ⟨2, ![n, 512]⟩ .f32) (C : FVec Ideal ⟨3, ![n, 64, 256]⟩ .f32)
    (H' : FVec Ideal ⟨2, ![n', 512]⟩ .f32) (C' : FVec Ideal ⟨3, ![n', 64, 256]⟩ .f32)
    (Win : FVec Ideal ⟨2, ![512, 256]⟩ .f32)
    (i : (⟨2, ![n, 64]⟩ : Shape).Idx) (i' : (⟨2, ![n', 64]⟩ : Shape).Idx)
    (hr : Cert.SoftDot.rowOf H (Cert.SoftDot.c0 i) = Cert.SoftDot.rowOf H' (Cert.SoftDot.c0 i'))
    (hs : Cert.SoftDot.slabOf C (Cert.SoftDot.c0 i) = Cert.SoftDot.slabOf C' (Cert.SoftDot.c0 i'))
    (h1 : Cert.SoftDot.c1 i = Cert.SoftDot.c1 i') :
    Cert.SoftDot.attnMulG H C Win i = Cert.SoftDot.attnMulG H' C' Win i' := by
  show Cert.SoftDot.attnMul (Cert.SoftDot.logit (Cert.SoftDot.slabOf C (Cert.SoftDot.c0 i))
      (Cert.SoftDot.target (Cert.SoftDot.rowOf H (Cert.SoftDot.c0 i)) (Cert.SoftDot.matOf Win))) (Cert.SoftDot.c1 i)
    = Cert.SoftDot.attnMul (Cert.SoftDot.logit (Cert.SoftDot.slabOf C' (Cert.SoftDot.c0 i'))
      (Cert.SoftDot.target (Cert.SoftDot.rowOf H' (Cert.SoftDot.c0 i')) (Cert.SoftDot.matOf Win))) (Cert.SoftDot.c1 i')
  rw [hr, hs, h1]

/-! ## The grid's blocks -/

/-- The block index maps over the grid: on the batch axis the query, context, output and attention windows share
    one block index, at most 7; on every other axis, and on both axes of the two weight windows, the index is 0. -/
theorem idx_facts : ∀ t : Fin cfg0.N,
    win0_0.index t (0 : Fin 2) = win0_4.index t (0 : Fin 2)
    ∧ win0_0.index t (1 : Fin 2) = 0
    ∧ win0_1.index t (0 : Fin 3) = win0_4.index t (0 : Fin 2)
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 2) = 0
    ∧ win0_3.index t (1 : Fin 2) = 0
    ∧ win0_4.index t (1 : Fin 2) = 0
    ∧ win0_5.index t (0 : Fin 2) = win0_4.index t (0 : Fin 2)
    ∧ win0_5.index t (1 : Fin 2) = 0
    ∧ win0_4.index t (0 : Fin 2) ≤ 7 :=
  (by decide +kernel : ∀ t : Fin grid0.N, _)

/-- Every one of the eight row blocks is some grid point's, for the output and for the attention array. -/
theorem idx_onto4 : ∀ q : Fin 8, ∃ t : Fin cfg0.N, win0_4.index t = ![q.val, 0] :=
  (by decide +kernel : ∀ q : Fin 8, ∃ t : Fin grid0.N, win0_4.index t = ![q.val, 0])
theorem idx_onto5 : ∀ q : Fin 8, ∃ t : Fin cfg0.N, win0_5.index t = ![q.val, 0] :=
  (by decide +kernel : ∀ q : Fin 8, ∃ t : Fin grid0.N, win0_5.index t = ![q.val, 0])

/-- An entry of the query block at a grid point is the query array's entry in the block's rows: row `x 0` of the
    block is row `index * 240 + x 0` of the array. -/
theorem qblk_apply (c : Dev nD) (t : Fin cfg0.N) (x : S240x512.Idx) (k : S1920x512.Idx)
    (hk0 : (k 0).val = win0_4.index t (0 : Fin 2) * 240 + (x 0).val) (hk1 : (k 1).val = (x 1).val) :
    (iblk m c 0 t : Vec Ideal S240x512 .f32) x = (V m c main_arg0 : Vec Ideal S1920x512 .f32) k := by
  obtain ⟨e0, e1, -⟩ := idx_facts t
  show (V m c main_arg0 : Vec Ideal S1920x512 .f32) (((cfg0.win 0).blk t).view.emb x) = _
  refine congrArg _ (funext fun a => Fin.ext ?_)
  match a with
  | ⟨0, _⟩ => show win0_0.index t (0 : Fin 2) * 240 + 1 * (x 0).val = (k 0).val; omega
  | ⟨1, _⟩ => show win0_0.index t (1 : Fin 2) * 512 + 1 * (x 1).val = (k 1).val; omega

/-- The same for the context block, whose other two axes are whole. -/
theorem cblk_apply (c : Dev nD) (t : Fin cfg0.N) (x : S240x64x256.Idx) (k : S1920x64x256.Idx)
    (hk0 : (k 0).val = win0_4.index t (0 : Fin 2) * 240 + (x 0).val) (hk1 : (k 1).val = (x 1).val)
    (hk2 : (k 2).val = (x 2).val) :
    (iblk m c 1 t : Vec Ideal S240x64x256 .f32) x = (V m c main_arg1 : Vec Ideal S1920x64x256 .f32) k := by
  obtain ⟨-, -, e0, e1, e2, -⟩ := idx_facts t
  show (V m c main_arg1 : Vec Ideal S1920x64x256 .f32) (((cfg0.win 1).blk t).view.emb x) = _
  refine congrArg _ (funext fun a => Fin.ext ?_)
  match a with
  | ⟨0, _⟩ => show win0_1.index t (0 : Fin 3) * 240 + 1 * (x 0).val = (k 0).val; omega
  | ⟨1, _⟩ => show win0_1.index t (1 : Fin 3) * 64 + 1 * (x 1).val = (k 1).val; omega
  | ⟨2, _⟩ => show win0_1.index t (2 : Fin 3) * 256 + 1 * (x 2).val = (k 2).val; omega

/-- The input-projection weight's block is the whole weight at every grid point. -/
theorem wblk2_eq (c : Dev nD) (t : Fin cfg0.N) :
    (iblk m c 2 t : Vec Ideal S512x256 .f32) = (V m c main_arg2 : Vec Ideal S512x256 .f32) := by
  obtain ⟨-, -, -, -, -, e0, e1, -⟩ := idx_facts t
  funext x
  show (V m c main_arg2 : Vec Ideal S512x256 .f32) (((cfg0.win 2).blk t).view.emb x) = _
  refine congrArg _ (funext fun a => Fin.ext ?_)
  match a with
  | ⟨0, _⟩ => show win0_2.index t (0 : Fin 2) * 512 + 1 * (x 0).val = (x 0).val; omega
  | ⟨1, _⟩ => show win0_2.index t (1 : Fin 2) * 256 + 1 * (x 1).val = (x 1).val; omega

/-- The stacked output weight's block is the whole stacked weight at every grid point. -/
theorem wblk3_eq (c : Dev nD) (t : Fin cfg0.N) :
    (iblk m c 3 t : Vec Ideal S768x512 .f32) = (V m c main_v0 : Vec Ideal S768x512 .f32) := by
  obtain ⟨-, -, -, -, -, -, -, e0, e1, -⟩ := idx_facts t
  funext x
  show (V m c main_v0 : Vec Ideal S768x512 .f32) (((cfg0.win 3).blk t).view.emb x) = _
  refine congrArg _ (funext fun a => Fin.ext ?_)
  match a with
  | ⟨0, _⟩ => show win0_3.index t (0 : Fin 2) * 768 + 1 * (x 0).val = (x 0).val; omega
  | ⟨1, _⟩ => show win0_3.index t (1 : Fin 2) * 512 + 1 * (x 1).val = (x 1).val; omega

/-! ## What each grid point writes back -/

/-- What a grid point writes back to the output is its block of the whole-batch function. -/
theorem flushed4_eq (c : Dev nD) (t : Fin cfg0.N) :
    (dats m 0 c).flushed 4 t = ((cfg0.win 4).blk t).view.read (Elt Ideal)
      (Cert.SoftDot.outCatW (V m c main_arg0) (V m c main_arg1) (V m c main_arg2) (V m c main_v0)) := by
  rw [Value.flushed4]
  unfold out0_4
  rw [View.canon_unit_zero hz2]
  simp only [View.ld_unit_zero (S := S240x512) hz2, View.ld_unit_zero (S := S240x64x256) hz3,
    View.ld_unit_zero (S := S512x256) hz2, View.ld_unit_zero (S := S768x512) hz2]
  rw [Pay.pay2_eq, wblk2_eq m c t, wblk3_eq m c t]
  obtain ⟨-, -, -, -, -, -, -, -, -, e41, -⟩ := idx_facts t
  funext y
  show Cert.SoftDot.outCatW (iblk m c 0 t : Vec Ideal S240x512 .f32) (iblk m c 1 t : Vec Ideal S240x64x256 .f32)
      (V m c main_arg2) (V m c main_v0) y
    = Cert.SoftDot.outCatW (V m c main_arg0) (V m c main_arg1) (V m c main_arg2) (V m c main_v0)
      (((cfg0.win 4).blk t).view.emb y)
  refine outCatW_row _ _ _ _ _ _ _ _ (funext fun k => ?_) (funext fun s => funext fun d => ?_) (Fin.ext ?_)
  · refine qblk_apply m c t _ _ ?_ rfl
    show win0_4.index t (0 : Fin 2) * 240 + 1 * (y 0).val = win0_4.index t (0 : Fin 2) * 240 + (y 0).val
    omega
  · refine cblk_apply m c t _ _ ?_ rfl rfl
    show win0_4.index t (0 : Fin 2) * 240 + 1 * (y 0).val = win0_4.index t (0 : Fin 2) * 240 + (y 0).val
    omega
  · show (y 1).val = win0_4.index t (1 : Fin 2) * 512 + 1 * (y 1).val
    omega

/-- What a grid point writes back to the attention array is its block of the whole-batch function. -/
theorem flushed5_eq (c : Dev nD) (t : Fin cfg0.N) :
    (dats m 0 c).flushed 5 t = ((cfg0.win 5).blk t).view.read (Elt Ideal)
      (Cert.SoftDot.attnMulG (V m c main_arg0) (V m c main_arg1) (V m c main_arg2)) := by
  rw [Value.flushed5]
  unfold out0_5
  rw [View.canon_unit_zero hz2]
  simp only [View.ld_unit_zero (S := S240x512) hz2, View.ld_unit_zero (S := S240x64x256) hz3,
    View.ld_unit_zero (S := S512x256) hz2]
  rw [Pay.pay1_eq, wblk2_eq m c t]
  obtain ⟨-, -, -, -, -, -, -, -, -, -, e50, e51, -⟩ := idx_facts t
  funext y
  show Cert.SoftDot.attnMulG (iblk m c 0 t : Vec Ideal S240x512 .f32) (iblk m c 1 t : Vec Ideal S240x64x256 .f32)
      (V m c main_arg2) y
    = Cert.SoftDot.attnMulG (V m c main_arg0) (V m c main_arg1) (V m c main_arg2)
      (((cfg0.win 5).blk t).view.emb y)
  refine attnMulG_row _ _ _ _ _ _ _ (funext fun k => ?_) (funext fun s => funext fun d => ?_) (Fin.ext ?_)
  · refine qblk_apply m c t _ _ ?_ rfl
    show win0_5.index t (0 : Fin 2) * 240 + 1 * (y 0).val = win0_4.index t (0 : Fin 2) * 240 + (y 0).val
    omega
  · refine cblk_apply m c t _ _ ?_ rfl rfl
    show win0_5.index t (0 : Fin 2) * 240 + 1 * (y 0).val = win0_4.index t (0 : Fin 2) * 240 + (y 0).val
    omega
  · show (y 1).val = win0_5.index t (1 : Fin 2) * 64 + 1 * (y 1).val
    omega

/-! ## The blocks tile the batch axis -/

/-- An index of the output is in a grid point's block iff each coordinate is in the block's range on its axis. -/
theorem mem_blk4 (t : Fin cfg0.N) (i : S1920x512.Idx) :
    i ∈ ((cfg0.win 4).blk t).view.set ↔ ∀ a : Fin 2, win0_4.index t a * S240x512.size a ≤ (i a).val
      ∧ (i a).val < win0_4.index t a * S240x512.size a + S240x512.size a := by
  show i ∈ ((View.whole main_v1_0).slice (win0_4.rect t)).set ↔ _
  rw [View.set_slice_whole, Rect.mem_set_unit]
  exact Iff.rfl

/-- The same for the attention array. -/
theorem mem_blk5 (t : Fin cfg0.N) (i : S1920x64.Idx) :
    i ∈ ((cfg0.win 5).blk t).view.set ↔ ∀ a : Fin 2, win0_5.index t a * S240x64.size a ≤ (i a).val
      ∧ (i a).val < win0_5.index t a * S240x64.size a + S240x64.size a := by
  show i ∈ ((View.whole main_v1_1).slice (win0_5.rect t)).set ↔ _
  rw [View.set_slice_whole, Rect.mem_set_unit]
  exact Iff.rfl

/-- Every index of the output lies in the block of the point whose block index is the row divided by 240. -/
theorem cover4 (i : S1920x512.Idx) :
    ∃ t : Fin cfg0.N, (cfg0.win 4).flush t = true ∧ i ∈ ((cfg0.win 4).blk t).view.set := by
  have hi0 : (i 0).val < 1920 := (i 0).isLt
  have hi1 : (i 1).val < 512 := (i 1).isLt
  obtain ⟨t, ht⟩ := idx_onto4 ⟨(i 0).val / 240, by omega⟩
  have q0 : win0_4.index t (0 : Fin 2) = (i 0).val / 240 := congrFun ht 0
  have q1 : win0_4.index t (1 : Fin 2) = 0 := congrFun ht 1
  refine ⟨t, flush0_4 t, ?_⟩
  rw [mem_blk4]
  intro a
  match a with
  | ⟨0, _⟩ =>
    show win0_4.index t (0 : Fin 2) * 240 ≤ (i 0).val ∧ (i 0).val < win0_4.index t (0 : Fin 2) * 240 + 240
    omega
  | ⟨1, _⟩ =>
    show win0_4.index t (1 : Fin 2) * 512 ≤ (i 1).val ∧ (i 1).val < win0_4.index t (1 : Fin 2) * 512 + 512
    omega

/-- The same for the attention array. -/
theorem cover5 (i : S1920x64.Idx) :
    ∃ t : Fin cfg0.N, (cfg0.win 5).flush t = true ∧ i ∈ ((cfg0.win 5).blk t).view.set := by
  have hi0 : (i 0).val < 1920 := (i 0).isLt
  have hi1 : (i 1).val < 64 := (i 1).isLt
  obtain ⟨t, ht⟩ := idx_onto5 ⟨(i 0).val / 240, by omega⟩
  have q0 : win0_5.index t (0 : Fin 2) = (i 0).val / 240 := congrFun ht 0
  have q1 : win0_5.index t (1 : Fin 2) = 0 := congrFun ht 1
  refine ⟨t, flush0_5 t, ?_⟩
  rw [mem_blk5]
  intro a
  match a with
  | ⟨0, _⟩ =>
    show win0_5.index t (0 : Fin 2) * 240 ≤ (i 0).val ∧ (i 0).val < win0_5.index t (0 : Fin 2) * 240 + 240
    omega
  | ⟨1, _⟩ =>
    show win0_5.index t (1 : Fin 2) * 64 ≤ (i 1).val ∧ (i 1).val < win0_5.index t (1 : Fin 2) * 64 + 64
    omega

/-! ## The stacked weight -/

/-- The array the output window reads its weight from is the two output weights stacked, the context one first. -/
theorem stacked_weight (c : Dev nD) :
    Cert.SoftDot.matOf (V m c main_v0 : FVec Ideal S768x512 .f32)
      = Cert.SoftDot.catMat (Cert.SoftDot.matOf (m ((c : Thread nD τ).loc main_arg3)))
          (Cert.SoftDot.matOf (m ((c : Thread nD τ).loc main_arg4))) := by
  have e : (V m c main_v0 : S768x512.Idx → EReal)
      = concatenate S768x512 0 [⟨S256x512, m ((c : Thread nD τ).loc main_arg3)⟩,
          ⟨S512x512, m ((c : Thread nD τ).loc main_arg4)⟩] concatenates_S256x512_S512x512_S768x512_d0 := by
    dsimp only [Gen.V, Gen.hostOps0]; after_results
  funext k j
  show (V m c main_v0 : S768x512.Idx → EReal) (ix2 k j) = _
  rw [e]
  unfold Cert.SoftDot.catMat
  by_cases hk : k.val < 256
  · rw [dif_pos hk]
    exact concatenate_pair_apply_left (t := S768x512) (s₁ := S256x512) (s₂ := S512x512) (0 : Fin 2) _ _ _ (ix2 k j) rfl
      (ix2 ⟨k.val, hk⟩ j)
      (fun b => by match b with | ⟨0, _⟩ => rfl | ⟨1, _⟩ => rfl)
  · rw [dif_neg hk]
    have hk' : k.val - 256 < 512 := by have := k.isLt; omega
    exact concatenate_pair_apply_right (t := S768x512) (s₁ := S256x512) (s₂ := S512x512) (0 : Fin 2) _ _ _ (ix2 k j) rfl rfl
      (ix2 ⟨k.val - 256, hk'⟩ j)
      (fun b hb => by match b with | ⟨0, _⟩ => exact absurd rfl hb | ⟨1, _⟩ => rfl)
      (by show k.val - 256 + 256 = k.val; omega)

/-! ## The arrays after the run -/

/-- The output array after the run. -/
theorem final4 (c : Dev nD) : (dats m 0 c).arrAt 4 cfg0.N
    = Cert.SoftDot.outCatG (m ((c : Thread nD τ).loc main_arg0)) (m ((c : Thread nD τ).loc main_arg1))
        (m ((c : Thread nD τ).loc main_arg2)) (m ((c : Thread nD τ).loc main_arg3)) (m ((c : Thread nD τ).loc main_arg4)) := by
  rw [(dats m 0 c).arrAt_eq_of_cover 4 _ (fun t _ => flushed4_eq m c t) cover4, V_main_arg0 m c, V_main_arg1 m c,
    V_main_arg2 m c]
  funext i
  show Ideal.tanh (Cert.SoftDot.preCat _ _ (Cert.SoftDot.matOf (V m c main_v0 : FVec Ideal S768x512 .f32)) _) = _
  rw [stacked_weight m c]
  rfl

/-- The attention array after the run. -/
theorem final5 (c : Dev nD) : (dats m 0 c).arrAt 5 cfg0.N
    = Cert.SoftDot.attnMulG (m ((c : Thread nD τ).loc main_arg0)) (m ((c : Thread nD τ).loc main_arg1))
        (m ((c : Thread nD τ).loc main_arg2)) := by
  rw [(dats m 0 c).arrAt_eq_of_cover 5 _ (fun t _ => flushed5_eq m c t) cover5, V_main_arg0 m c, V_main_arg1 m c,
    V_main_arg2 m c]

/-- After the run the output holds the tanh of the concatenated projection and the attention array the
    reciprocal-form softmax weights, of the argument arrays; the arguments are unchanged. -/
theorem run_value : θ_run defs (onTc (τ := τ) (main (F := Ideal))) ⟨m, fun _ => 0, ρ⟩ fun r => ∀ c : Dev nD,
      r.2.mem ((c.tc : Thread nD τ).loc main_v1_0) = Cert.SoftDot.outCatG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v1_1) = Cert.SoftDot.attnMulG (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  exact (θ_run defs _ _).mono (fun r h c => ⟨(h c).1.trans (final4 m c), (h c).2.1.trans (final5 m c), (h c).2.2⟩)
    (Value.run_blocks m ρ)

end Cert.KernelIdeal.Val

end
-- ==== Proof.RefPay.lean ====
/-
  What the reference kernel's body computes on one block of 128 batch rows, as whole-block functions of its loaded
  blocks: the stored attention weights are the row-wise softmax weights in the quotient form, and the stored output
  is the hyperbolic tangent of the split projection, both read index by index.
-/
import proofs.«117889_g2000304853130043_pallasbulk_1157_2_alg».proof.Proof.Gen.ReferenceIdeal.Skeleton
import proofs.«117889_g2000304853130043_pallasbulk_1157_2_alg».proof.Proof.Spec
import Idealize.ShloMosaic.Lib.Pipeline.Value

noncomputable section

namespace Cert.ReferenceIdeal.Pay

open Cert.ReferenceIdeal Cert.ReferenceIdeal.Gen Idealize.ShloMosaic Idealize.ShloMosaic.ValueIdx
open scoped BigOperators

/-! ## The three products: a contraction over one axis is a sum over that axis's coordinate -/

theorem lhs_tg_0 (i : S128x256.Idx) (q : dot_S128x512_S512x256_S128x256_1_0_0_1_n_n.contr.Idx) :
    (dot_S128x512_S512x256_S128x256_1_0_0_1_n_n.lhsIdx i q 0).val = (i 0).val := by
  unfold DotDims.lhsIdx
  rw [dif_neg (show ¬(0 : Fin S128x512.rank) ∈ dot_S128x512_S512x256_S128x256_1_0_0_1_n_n.lhsBatch by decide),
    dif_pos (show (0 : Fin S128x512.rank) ∈ dot_S128x512_S512x256_S128x256_1_0_0_1_n_n.lhsNonContracting by decide)]
  rfl
theorem lhs_tg_1 (i : S128x256.Idx) (q : dot_S128x512_S512x256_S128x256_1_0_0_1_n_n.contr.Idx) :
    (dot_S128x512_S512x256_S128x256_1_0_0_1_n_n.lhsIdx i q 1).val = (q ⟨0, by decide⟩).val :=
  dot_S128x512_S512x256_S128x256_1_0_0_1_n_n.lhsIdx_val_of_single rfl i q
theorem rhs_tg_0 (i : S128x256.Idx) (q : dot_S128x512_S512x256_S128x256_1_0_0_1_n_n.contr.Idx) :
    (dot_S128x512_S512x256_S128x256_1_0_0_1_n_n.rhsIdx i q 0).val = (q ⟨0, by decide⟩).val :=
  dot_S128x512_S512x256_S128x256_1_0_0_1_n_n.rhsIdx_val_of_single rfl i q
theorem rhs_tg_1 (i : S128x256.Idx) (q : dot_S128x512_S512x256_S128x256_1_0_0_1_n_n.contr.Idx) :
    (dot_S128x512_S512x256_S128x256_1_0_0_1_n_n.rhsIdx i q 1).val = (i 1).val := by
  unfold DotDims.rhsIdx
  rw [dif_neg (show ¬(1 : Fin S512x256.rank) ∈ dot_S128x512_S512x256_S128x256_1_0_0_1_n_n.rhsBatch by decide),
    dif_pos (show (1 : Fin S512x256.rank) ∈ dot_S128x512_S512x256_S128x256_1_0_0_1_n_n.rhsNonContracting by decide)]
  rfl

/-- The query block through the input weight, into a zero accumulator, at row `r` and column `d`: the sum over the 512 contracted coordinates. -/
theorem mm_tg (x : FVec Ideal S128x512 .f32) (w : FVec Ideal S512x256 .f32) (r : Fin 128) (d : Fin 256) :
    matmul dot_S128x512_S512x256_S128x256_1_0_0_1_n_n none x w (constant (F := Ideal) S128x256 .f32 0x00000000#32) (ix2 r d)
      = ∑ k : Fin 512, x (ix2 r k) * w (ix2 k d) := by
  refine (Ideal.matmul_constant_zero_apply dot_S128x512_S512x256_S128x256_1_0_0_1_n_n none x w (ix2 r d)).trans ?_
  rw [← Equiv.sum_comp (contrEquiv1 dot_S128x512_S512x256_S128x256_1_0_0_1_n_n 512 rfl rfl).symm]
  refine Finset.sum_congr rfl fun k _ => ?_
  have hk := contrEquiv1_symm_val dot_S128x512_S512x256_S128x256_1_0_0_1_n_n 512 rfl rfl k
  have el : dot_S128x512_S512x256_S128x256_1_0_0_1_n_n.lhsIdx (ix2 r d) ((contrEquiv1 dot_S128x512_S512x256_S128x256_1_0_0_1_n_n 512 rfl rfl).symm k) = ix2 r k :=
    funext fun a => Fin.ext (by
      match a with
      | ⟨0, _⟩ => exact lhs_tg_0 _ _
      | ⟨1, _⟩ => exact (lhs_tg_1 _ _).trans hk)
  have er : dot_S128x512_S512x256_S128x256_1_0_0_1_n_n.rhsIdx (ix2 r d) ((contrEquiv1 dot_S128x512_S512x256_S128x256_1_0_0_1_n_n 512 rfl rfl).symm k) = ix2 k d :=
    funext fun a => Fin.ext (by
      match a with
      | ⟨0, _⟩ => exact (rhs_tg_0 _ _).trans hk
      | ⟨1, _⟩ => exact rhs_tg_1 _ _)
  rw [el, er]

theorem lhs_wc_0 (i : S128x512.Idx) (q : dot_S128x256_S256x512_S128x512_1_0_0_1_n_n.contr.Idx) :
    (dot_S128x256_S256x512_S128x512_1_0_0_1_n_n.lhsIdx i q 0).val = (i 0).val := by
  unfold DotDims.lhsIdx
  rw [dif_neg (show ¬(0 : Fin S128x256.rank) ∈ dot_S128x256_S256x512_S128x512_1_0_0_1_n_n.lhsBatch by decide),
    dif_pos (show (0 : Fin S128x256.rank) ∈ dot_S128x256_S256x512_S128x512_1_0_0_1_n_n.lhsNonContracting by decide)]
  rfl
theorem lhs_wc_1 (i : S128x512.Idx) (q : dot_S128x256_S256x512_S128x512_1_0_0_1_n_n.contr.Idx) :
    (dot_S128x256_S256x512_S128x512_1_0_0_1_n_n.lhsIdx i q 1).val = (q ⟨0, by decide⟩).val :=
  dot_S128x256_S256x512_S128x512_1_0_0_1_n_n.lhsIdx_val_of_single rfl i q
theorem rhs_wc_0 (i : S128x512.Idx) (q : dot_S128x256_S256x512_S128x512_1_0_0_1_n_n.contr.Idx) :
    (dot_S128x256_S256x512_S128x512_1_0_0_1_n_n.rhsIdx i q 0).val = (q ⟨0, by decide⟩).val :=
  dot_S128x256_S256x512_S128x512_1_0_0_1_n_n.rhsIdx_val_of_single rfl i q
theorem rhs_wc_1 (i : S128x512.Idx) (q : dot_S128x256_S256x512_S128x512_1_0_0_1_n_n.contr.Idx) :
    (dot_S128x256_S256x512_S128x512_1_0_0_1_n_n.rhsIdx i q 1).val = (i 1).val := by
  unfold DotDims.rhsIdx
  rw [dif_neg (show ¬(1 : Fin S256x512.rank) ∈ dot_S128x256_S256x512_S128x512_1_0_0_1_n_n.rhsBatch by decide),
    dif_pos (show (1 : Fin S256x512.rank) ∈ dot_S128x256_S256x512_S128x512_1_0_0_1_n_n.rhsNonContracting by decide)]
  rfl

/-- The weighted context through its output weight, into a zero accumulator: the sum over the 256 contracted coordinates. -/
theorem mm_wc (x : FVec Ideal S128x256 .f32) (w : FVec Ideal S256x512 .f32) (r : Fin 128) (d : Fin 512) :
    matmul dot_S128x256_S256x512_S128x512_1_0_0_1_n_n none x w (constant (F := Ideal) S128x512 .f32 0x00000000#32) (ix2 r d)
      = ∑ k : Fin 256, x (ix2 r k) * w (ix2 k d) := by
  refine (Ideal.matmul_constant_zero_apply dot_S128x256_S256x512_S128x512_1_0_0_1_n_n none x w (ix2 r d)).trans ?_
  rw [← Equiv.sum_comp (contrEquiv1 dot_S128x256_S256x512_S128x512_1_0_0_1_n_n 256 rfl rfl).symm]
  refine Finset.sum_congr rfl fun k _ => ?_
  have hk := contrEquiv1_symm_val dot_S128x256_S256x512_S128x512_1_0_0_1_n_n 256 rfl rfl k
  have el : dot_S128x256_S256x512_S128x512_1_0_0_1_n_n.lhsIdx (ix2 r d) ((contrEquiv1 dot_S128x256_S256x512_S128x512_1_0_0_1_n_n 256 rfl rfl).symm k) = ix2 r k :=
    funext fun a => Fin.ext (by
      match a with
      | ⟨0, _⟩ => exact lhs_wc_0 _ _
      | ⟨1, _⟩ => exact (lhs_wc_1 _ _).trans hk)
  have er : dot_S128x256_S256x512_S128x512_1_0_0_1_n_n.rhsIdx (ix2 r d) ((contrEquiv1 dot_S128x256_S256x512_S128x512_1_0_0_1_n_n 256 rfl rfl).symm k) = ix2 k d :=
    funext fun a => Fin.ext (by
      match a with
      | ⟨0, _⟩ => exact (rhs_wc_0 _ _).trans hk
      | ⟨1, _⟩ => exact rhs_wc_1 _ _)
  rw [el, er]

theorem lhs_wh_0 (i : S128x512.Idx) (q : dot_S128x512_S512x512_S128x512_1_0_0_1_n_n.contr.Idx) :
    (dot_S128x512_S512x512_S128x512_1_0_0_1_n_n.lhsIdx i q 0).val = (i 0).val := by
  unfold DotDims.lhsIdx
  rw [dif_neg (show ¬(0 : Fin S128x512.rank) ∈ dot_S128x512_S512x512_S128x512_1_0_0_1_n_n.lhsBatch by decide),
    dif_pos (show (0 : Fin S128x512.rank) ∈ dot_S128x512_S512x512_S128x512_1_0_0_1_n_n.lhsNonContracting by decide)]
  rfl
theorem lhs_wh_1 (i : S128x512.Idx) (q : dot_S128x512_S512x512_S128x512_1_0_0_1_n_n.contr.Idx) :
    (dot_S128x512_S512x512_S128x512_1_0_0_1_n_n.lhsIdx i q 1).val = (q ⟨0, by decide⟩).val :=
  dot_S128x512_S512x512_S128x512_1_0_0_1_n_n.lhsIdx_val_of_single rfl i q
theorem rhs_wh_0 (i : S128x512.Idx) (q : dot_S128x512_S512x512_S128x512_1_0_0_1_n_n.contr.Idx) :
    (dot_S128x512_S512x512_S128x512_1_0_0_1_n_n.rhsIdx i q 0).val = (q ⟨0, by decide⟩).val :=
  dot_S128x512_S512x512_S128x512_1_0_0_1_n_n.rhsIdx_val_of_single rfl i q
theorem rhs_wh_1 (i : S128x512.Idx) (q : dot_S128x512_S512x512_S128x512_1_0_0_1_n_n.contr.Idx) :
    (dot_S128x512_S512x512_S128x512_1_0_0_1_n_n.rhsIdx i q 1).val = (i 1).val := by
  unfold DotDims.rhsIdx
  rw [dif_neg (show ¬(1 : Fin S512x512.rank) ∈ dot_S128x512_S512x512_S128x512_1_0_0_1_n_n.rhsBatch by decide),
    dif_pos (show (1 : Fin S512x512.rank) ∈ dot_S128x512_S512x512_S128x512_1_0_0_1_n_n.rhsNonContracting by decide)]
  rfl

/-- The query block through its output weight, into a zero accumulator: the sum over the 512 contracted coordinates. -/
theorem mm_wh (x : FVec Ideal S128x512 .f32) (w : FVec Ideal S512x512 .f32) (r : Fin 128) (d : Fin 512) :
    matmul dot_S128x512_S512x512_S128x512_1_0_0_1_n_n none x w (constant (F := Ideal) S128x512 .f32 0x00000000#32) (ix2 r d)
      = ∑ k : Fin 512, x (ix2 r k) * w (ix2 k d) := by
  refine (Ideal.matmul_constant_zero_apply dot_S128x512_S512x512_S128x512_1_0_0_1_n_n none x w (ix2 r d)).trans ?_
  rw [← Equiv.sum_comp (contrEquiv1 dot_S128x512_S512x512_S128x512_1_0_0_1_n_n 512 rfl rfl).symm]
  refine Finset.sum_congr rfl fun k _ => ?_
  have hk := contrEquiv1_symm_val dot_S128x512_S512x512_S128x512_1_0_0_1_n_n 512 rfl rfl k
  have el : dot_S128x512_S512x512_S128x512_1_0_0_1_n_n.lhsIdx (ix2 r d) ((contrEquiv1 dot_S128x512_S512x512_S128x512_1_0_0_1_n_n 512 rfl rfl).symm k) = ix2 r k :=
    funext fun a => Fin.ext (by
      match a with
      | ⟨0, _⟩ => exact lhs_wh_0 _ _
      | ⟨1, _⟩ => exact (lhs_wh_1 _ _).trans hk)
  have er : dot_S128x512_S512x512_S128x512_1_0_0_1_n_n.rhsIdx (ix2 r d) ((contrEquiv1 dot_S128x512_S512x512_S128x512_1_0_0_1_n_n 512 rfl rfl).symm k) = ix2 k d :=
    funext fun a => Fin.ext (by
      match a with
      | ⟨0, _⟩ => exact (rhs_wh_0 _ _).trans hk
      | ⟨1, _⟩ => exact rhs_wh_1 _ _)
  rw [el, er]

/-! ## Layout operations: a unit axis inserted and then broadcast -/

/-- A column `[128]` kept as `[128, 1]` and broadcast along 64 positions reads its row's entry. -/
theorem keep_col {α : Type} (v : S128.Idx → α) (r : Fin 128) (s : Fin 64) :
    broadcastTo S128x64 (shapeCast S128x1 v shapeCasts_S128_S128x1) broadcasts_S128x1_S128x64 (ix2 r s) = v (ix1 r) := by
  refine (broadcastTo_apply (shapeCast S128x1 v shapeCasts_S128_S128x1) broadcasts_S128x1_S128x64 (ix2 r s)
    (ix2 r (0 : Fin 1)) fun ax => ?_).trans ?_
  · match ax with
    | ⟨0, _⟩ => rfl
    | ⟨1, _⟩ => rfl
  · refine shapeCast_apply v shapeCasts_S128_S128x1 (ix2 r (0 : Fin 1)) (ix1 r) ?_
    rw [Shape.rowMajor_val_one, Shape.rowMajor_val_two]
    show r.val = r.val * 1 + 0
    omega

/-- A matrix `[128, 256]` given a middle unit axis and broadcast along 64 positions reads its own `(r, d)` entry. -/
theorem keep_mid {α : Type} (v : S128x256.Idx → α) (r : Fin 128) (s : Fin 64) (d : Fin 256) :
    broadcastTo S128x64x256 (shapeCast S128x1x256 v shapeCasts_S128x256_S128x1x256) broadcasts_S128x1x256_S128x64x256
      (ix3 r s d) = v (ix2 r d) := by
  refine (broadcastTo_apply (shapeCast S128x1x256 v shapeCasts_S128x256_S128x1x256) broadcasts_S128x1x256_S128x64x256
    (ix3 r s d) (ix3 r (0 : Fin 1) d) fun ax => ?_).trans ?_
  · match ax with
    | ⟨0, _⟩ => rfl
    | ⟨1, _⟩ => rfl
    | ⟨2, _⟩ => rfl
  · refine shapeCast_apply v shapeCasts_S128x256_S128x1x256 (ix3 r (0 : Fin 1) d) (ix2 r d) ?_
    rw [Shape.rowMajor_val_two, Shape.rowMajor_val_three]
    show r.val * 256 + d.val = (r.val * 1 + 0) * 256 + d.val
    omega

/-- A matrix `[128, 64]` given a trailing unit axis and broadcast along 256 lanes reads its own `(r, s)` entry. -/
theorem keep_last {α : Type} (v : S128x64.Idx → α) (r : Fin 128) (s : Fin 64) (d : Fin 256) :
    broadcastTo S128x64x256 (shapeCast S128x64x1 v shapeCasts_S128x64_S128x64x1) broadcasts_S128x64x1_S128x64x256
      (ix3 r s d) = v (ix2 r s) := by
  refine (broadcastTo_apply (shapeCast S128x64x1 v shapeCasts_S128x64_S128x64x1) broadcasts_S128x64x1_S128x64x256
    (ix3 r s d) (ix3 r s (0 : Fin 1)) fun ax => ?_).trans ?_
  · match ax with
    | ⟨0, _⟩ => rfl
    | ⟨1, _⟩ => rfl
    | ⟨2, _⟩ => rfl
  · refine shapeCast_apply v shapeCasts_S128x64_S128x64x1 (ix3 r s (0 : Fin 1)) (ix2 r s) ?_
    rw [Shape.rowMajor_val_two, Shape.rowMajor_val_three]
    show r.val * 64 + s.val = (r.val * 64 + s.val) * 1 + 0
    omega

/-! ## Reductions over one axis -/

/-- The sum over the last axis of `[128, 64, 256]`. -/
theorem sum_last (src : FVec Ideal S128x64x256 .f32) (h : S128x64x256.Reduces [2] S128x64) (hφ : FKind.Formats .f32)
    (hacc : (0x00000000#32 : BitVec 32) = FKind.add.neutral .f32 hφ) (r : Fin 128) (s : Fin 64) :
    multiReduction (F := Ideal) .add [2] S128x64 src 0x00000000#32 h hφ hacc (ix2 r s) = ∑ d : Fin 256, src (ix3 r s d) := by
  refine (Ideal.multiReduction_add_single src 0x00000000#32 h hφ hacc (ix2 r s)).trans ?_
  refine Finset.sum_congr rfl fun d _ => congrArg src (funext fun a => Fin.ext ?_)
  match a with
  | ⟨0, _⟩ => rfl
  | ⟨1, _⟩ => rfl
  | ⟨2, _⟩ => rfl

/-- The sum over the middle axis of `[128, 64, 256]`. -/
theorem sum_mid (src : FVec Ideal S128x64x256 .f32) (h : S128x64x256.Reduces [1] S128x256) (hφ : FKind.Formats .f32)
    (hacc : (0x00000000#32 : BitVec 32) = FKind.add.neutral .f32 hφ) (r : Fin 128) (d : Fin 256) :
    multiReduction (F := Ideal) .add [1] S128x256 src 0x00000000#32 h hφ hacc (ix2 r d) = ∑ s : Fin 64, src (ix3 r s d) := by
  refine (Ideal.multiReduction_add_single src 0x00000000#32 h hφ hacc (ix2 r d)).trans ?_
  refine Finset.sum_congr rfl fun s _ => congrArg src (funext fun a => Fin.ext ?_)
  match a with
  | ⟨0, _⟩ => rfl
  | ⟨1, _⟩ => rfl
  | ⟨2, _⟩ => rfl

/-- The sum over the positions of a `[128, 64]` block's row. -/
theorem sum_row (src : FVec Ideal S128x64 .f32) (h : S128x64.Reduces [1] S128) (hφ : FKind.Formats .f32)
    (hacc : (0x00000000#32 : BitVec 32) = FKind.add.neutral .f32 hφ) (r : Fin 128) :
    multiReduction (F := Ideal) .add [1] S128 src 0x00000000#32 h hφ hacc (ix1 r) = ∑ s : Fin 64, src (ix2 r s) := by
  refine (Ideal.multiReduction_add_single src 0x00000000#32 h hφ hacc (ix1 r)).trans ?_
  refine Finset.sum_congr rfl fun s _ => congrArg src (funext fun a => Fin.ext ?_)
  match a with
  | ⟨0, _⟩ => rfl
  | ⟨1, _⟩ => rfl

/-- The word of negative infinity reads the bottom element. -/
theorem ofBits_neg_inf : Ideal.ofBits .f32 0xFF800000#32 = (⊥ : EReal) := by simp [Ideal.ofBits, Ideal.ieee]

/-- The maximum over the positions of a `[128, 64]` block's row: the fold of `max` from the bottom element. -/
theorem max_row (src : FVec Ideal S128x64 .f32) (h : S128x64.Reduces [1] S128) (hφ : FKind.Formats .f32)
    (hacc : (0xFF800000#32 : BitVec 32) = FKind.maximumf.neutral .f32 hφ) (r : Fin 128) :
    multiReduction (F := Ideal) .maximumf [1] S128 src 0xFF800000#32 h hφ hacc (ix1 r)
      = Cert.SoftDot.rowMax fun s => src (ix2 r s) := by
  refine (Ideal.multiReduction_maximumf_single src 0xFF800000#32 h hφ hacc (ix1 r)).trans ?_
  unfold Cert.SoftDot.rowMax
  have e : (src ∘ h.lift (ix1 r)) = fun s : Fin 64 => src (ix2 r s) := funext fun s => congrArg src (funext fun a => Fin.ext (by
    match a with
    | ⟨0, _⟩ => rfl
    | ⟨1, _⟩ => rfl))
  rw [e]
  exact congrArg (fun b => (Finset.univ : Finset (Fin 64)).fold max b fun s => src (ix2 r s)) ofBits_neg_inf

/-! ## The payloads in stages -/

/-- The logits of a block: each position's context vector against the projected query. -/
def lgV (x0 : FVec Ideal S128x512 .f32) (x1 : FVec Ideal S128x64x256 .f32) (x2 : FVec Ideal S512x256 .f32) :
    FVec Ideal S128x64 .f32 :=
  multiReduction (F := Ideal) .add [2] S128x64
    (mulf x1 (broadcastTo S128x64x256
      (shapeCast S128x1x256
        (matmul dot_S128x512_S512x256_S128x256_1_0_0_1_n_n none x0 x2 (constant (F := Ideal) S128x256 .f32 0x00000000#32))
        shapeCasts_S128x256_S128x1x256)
      broadcasts_S128x1x256_S128x64x256))
    0x00000000#32 reduces_S128x64x256_S128x64 (.inl rfl) rfl

/-- A column kept and broadcast along the 64 positions. -/
def kd (v : FVec Ideal S128 .f32) : FVec Ideal S128x64 .f32 :=
  broadcastTo S128x64 (shapeCast S128x1 v shapeCasts_S128_S128x1) broadcasts_S128x1_S128x64

/-- The row maxima of a block of logits. -/
def mxV (l : FVec Ideal S128x64 .f32) : FVec Ideal S128 .f32 :=
  multiReduction (F := Ideal) .maximumf [1] S128 l 0xFF800000#32 reduces_S128x64_S128 (.inl rfl) rfl

/-- The shifted exponentials of a block of logits. -/
def exV (l : FVec Ideal S128x64 .f32) : FVec Ideal S128x64 .f32 := exp (subf l (kd (mxV l)))

/-- The row sums of a block. -/
def smV (e : FVec Ideal S128x64 .f32) : FVec Ideal S128 .f32 :=
  multiReduction (F := Ideal) .add [1] S128 e 0x00000000#32 reduces_S128x64_S128 (.inl rfl) rfl

/-- The quotient-form softmax weights of a block of logits. -/
def sfV (l : FVec Ideal S128x64 .f32) : FVec Ideal S128x64 .f32 := divf (exV l) (kd (smV (exV l)))

/-- The weighted context of a block: the weights against each position's context vector, summed over the positions. -/
def wcV (a : FVec Ideal S128x64 .f32) (x1 : FVec Ideal S128x64x256 .f32) : FVec Ideal S128x256 .f32 :=
  multiReduction (F := Ideal) .add [1] S128x256
    (mulf (broadcastTo S128x64x256 (shapeCast S128x64x1 a shapeCasts_S128x64_S128x64x1) broadcasts_S128x64x1_S128x64x256) x1)
    0x00000000#32 reduces_S128x64x256_S128x256 (.inl rfl) rfl

/-- The output of a block from its weighted context: the hyperbolic tangent of the two products' sum. -/
def outV (wc : FVec Ideal S128x256 .f32) (x0 : FVec Ideal S128x512 .f32) (x3 : FVec Ideal S256x512 .f32)
    (x4 : FVec Ideal S512x512 .f32) : FVec Ideal S128x512 .f32 :=
  tanh (addf
    (matmul dot_S128x256_S256x512_S128x512_1_0_0_1_n_n none wc x3 (constant (F := Ideal) S128x512 .f32 0x00000000#32))
    (matmul dot_S128x512_S512x512_S128x512_1_0_0_1_n_n none x0 x4 (constant (F := Ideal) S128x512 .f32 0x00000000#32)))

/-- The weights payload is the softmax of the logits … -/
theorem pay1_stages (x0 : FVec Ideal S128x512 .f32) (x1 : FVec Ideal S128x64x256 .f32) (x2 : FVec Ideal S512x256 .f32) :
    k0_pay1 (F := Ideal) x0 x1 x2 = sfV (lgV x0 x1 x2) := rfl

/-- … and the output payload is the output of the weighted context under the weights payload. -/
theorem pay2_stages (x0 : FVec Ideal S128x512 .f32) (x1 : FVec Ideal S128x64x256 .f32) (x2 : FVec Ideal S512x256 .f32)
    (x3 : FVec Ideal S256x512 .f32) (x4 : FVec Ideal S512x512 .f32) :
    k0_pay2 (F := Ideal) x0 x1 x2 x3 x4 = outV (wcV (k0_pay1 (F := Ideal) x0 x1 x2) x1) x0 x3 x4 := rfl

/-! ## Each stage at an index -/

theorem lgV_apply (x0 : FVec Ideal S128x512 .f32) (x1 : FVec Ideal S128x64x256 .f32) (x2 : FVec Ideal S512x256 .f32)
    (r : Fin 128) (s : Fin 64) : lgV x0 x1 x2 (ix2 r s) = Cert.SoftDot.logitsAt x0 x1 x2 r s := by
  unfold lgV
  refine (sum_last _ _ _ _ r s).trans ?_
  unfold Cert.SoftDot.logitsAt Cert.SoftDot.logit
  refine Finset.sum_congr rfl fun d _ => ?_
  rw [mulf_apply, keep_mid, mm_tg]
  rfl

theorem kd_apply (v : FVec Ideal S128 .f32) (r : Fin 128) (s : Fin 64) : kd v (ix2 r s) = v (ix1 r) := keep_col v r s

theorem mxV_apply (l : FVec Ideal S128x64 .f32) (r : Fin 128) : mxV l (ix1 r) = Cert.SoftDot.rowMax fun s => l (ix2 r s) :=
  max_row l _ _ _ r

theorem exV_apply (l : FVec Ideal S128x64 .f32) (r : Fin 128) (s : Fin 64) :
    exV l (ix2 r s) = Cert.SoftDot.ex (fun s => l (ix2 r s)) s := by
  show Ideal.exp (l (ix2 r s) - kd (mxV l) (ix2 r s)) = _
  rw [kd_apply, mxV_apply]
  rfl

theorem smV_apply (e : FVec Ideal S128x64 .f32) (r : Fin 128) : smV e (ix1 r) = ∑ s : Fin 64, e (ix2 r s) :=
  sum_row e _ _ _ r

theorem sfV_apply (l : FVec Ideal S128x64 .f32) (r : Fin 128) (s : Fin 64) :
    sfV l (ix2 r s) = Cert.SoftDot.attnDiv (fun s => l (ix2 r s)) s := by
  show Ideal.div (exV l (ix2 r s)) (kd (smV (exV l)) (ix2 r s)) = _
  rw [kd_apply, smV_apply, exV_apply]
  unfold Cert.SoftDot.attnDiv Cert.SoftDot.den
  exact congrArg (Ideal.div _) (Finset.sum_congr rfl fun k _ => exV_apply l r k)

theorem wcV_apply (a : FVec Ideal S128x64 .f32) (x1 : FVec Ideal S128x64x256 .f32) (r : Fin 128) (d : Fin 256) :
    wcV a x1 (ix2 r d) = ∑ s : Fin 64, a (ix2 r s) * x1 (ix3 r s d) := by
  unfold wcV
  refine (sum_mid _ _ _ _ r d).trans ?_
  refine Finset.sum_congr rfl fun s _ => ?_
  rw [mulf_apply, keep_last]

theorem outV_apply (wc : FVec Ideal S128x256 .f32) (x0 : FVec Ideal S128x512 .f32) (x3 : FVec Ideal S256x512 .f32)
    (x4 : FVec Ideal S512x512 .f32) (r : Fin 128) (j : Fin 512) :
    outV wc x0 x3 x4 (ix2 r j)
      = Ideal.tanh ((∑ k : Fin 256, wc (ix2 r k) * x3 (ix2 k j)) + ∑ k : Fin 512, x0 (ix2 r k) * x4 (ix2 k j)) := by
  show Ideal.tanh (matmul dot_S128x256_S256x512_S128x512_1_0_0_1_n_n none wc x3
      (constant (F := Ideal) S128x512 .f32 0x00000000#32) (ix2 r j)
    + matmul dot_S128x512_S512x512_S128x512_1_0_0_1_n_n none x0 x4
      (constant (F := Ideal) S128x512 .f32 0x00000000#32) (ix2 r j)) = _
  rw [mm_wc, mm_wh]

/-! ## The two payloads -/

/-- The attention-weights payload on a block is the quotient-form softmax of the block's rows. -/
theorem pay1_eq (x0 : FVec Ideal S128x512 .f32) (x1 : FVec Ideal S128x64x256 .f32) (x2 : FVec Ideal S512x256 .f32) :
    k0_pay1 (F := Ideal) x0 x1 x2 = Cert.SoftDot.attnDivG x0 x1 x2 := by
  rw [pay1_stages]
  funext i
  obtain ⟨r, s, rfl⟩ : ∃ (r : Fin 128) (s : Fin 64), i = ix2 r s := ⟨i 0, i 1, eq_ix2 i⟩
  rw [sfV_apply]
  show Cert.SoftDot.attnDiv (fun s => lgV x0 x1 x2 (ix2 r s)) s = Cert.SoftDot.attnDiv (Cert.SoftDot.logitsAt x0 x1 x2 r) s
  exact congrArg (fun l => Cert.SoftDot.attnDiv l s) (funext fun k => lgV_apply x0 x1 x2 r k)

/-- The output payload on a block is the tanh of the split projection of the block's rows. -/
theorem pay2_eq (x0 : FVec Ideal S128x512 .f32) (x1 : FVec Ideal S128x64x256 .f32) (x2 : FVec Ideal S512x256 .f32)
    (x3 : FVec Ideal S256x512 .f32) (x4 : FVec Ideal S512x512 .f32) :
    k0_pay2 (F := Ideal) x0 x1 x2 x3 x4 = Cert.SoftDot.outSplitG x0 x1 x2 x3 x4 := by
  rw [pay2_stages, pay1_eq]
  funext i
  obtain ⟨r, j, rfl⟩ : ∃ (r : Fin 128) (j : Fin 512), i = ix2 r j := ⟨i 0, i 1, eq_ix2 i⟩
  rw [outV_apply]
  unfold Cert.SoftDot.outSplitG Cert.SoftDot.preSplit
  refine congrArg Ideal.tanh (congrArg₂ (· + ·) (Finset.sum_congr rfl fun k _ => ?_) rfl)
  rw [wcV_apply]
  rfl

end Cert.ReferenceIdeal.Pay

end
-- ==== Proof.RefValue.lean ====
/-
  The reference kernel's run read as values: its fifteen grid points each write back one block of 128 batch rows,
  the blocks tile the batch axis, and each row's result depends on that row of the inputs only, so after the run
  the two result arrays are the whole-batch functions of the argument arrays.
-/
import proofs.«117889_g2000304853130043_pallasbulk_1157_2_alg».proof.Proof.Gen.ReferenceIdeal.Value
import proofs.«117889_g2000304853130043_pallasbulk_1157_2_alg».proof.Proof.Spec
import proofs.«117889_g2000304853130043_pallasbulk_1157_2_alg».proof.Proof.RefPay

noncomputable section

namespace Cert.ReferenceIdeal.Val

open Cert.ReferenceIdeal Cert.ReferenceIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-! ## One batch row determines its results -/

open Cert.SoftDot in
/-- The attention weights at an index depend on the inputs only through that index's batch row of the queries and
    of the contexts. -/
theorem attnDivG_row {n n' : Nat} (H : FVec Ideal ⟨2, ![n, 512]⟩ .f32) (C : FVec Ideal ⟨3, ![n, 64, 256]⟩ .f32)
    (H' : FVec Ideal ⟨2, ![n', 512]⟩ .f32) (C' : FVec Ideal ⟨3, ![n', 64, 256]⟩ .f32)
    (Win : FVec Ideal ⟨2, ![512, 256]⟩ .f32) (r : Fin n) (r' : Fin n') (s : Fin 64)
    (hH : rowOf H r = rowOf H' r') (hC : slabOf C r = slabOf C' r') :
    attnDivG H C Win (ix2 r s) = attnDivG H' C' Win (ix2 r' s) := by
  show attnDiv (logit (slabOf C r) (target (rowOf H r) (matOf Win))) s
    = attnDiv (logit (slabOf C' r') (target (rowOf H' r') (matOf Win))) s
  rw [hH, hC]

open Cert.SoftDot in
/-- So does the output. -/
theorem outSplitG_row {n n' : Nat} (H : FVec Ideal ⟨2, ![n, 512]⟩ .f32) (C : FVec Ideal ⟨3, ![n, 64, 256]⟩ .f32)
    (H' : FVec Ideal ⟨2, ![n', 512]⟩ .f32) (C' : FVec Ideal ⟨3, ![n', 64, 256]⟩ .f32)
    (Win : FVec Ideal ⟨2, ![512, 256]⟩ .f32) (Woc : FVec Ideal ⟨2, ![256, 512]⟩ .f32)
    (Woh : FVec Ideal ⟨2, ![512, 512]⟩ .f32) (r : Fin n) (r' : Fin n') (j : Fin 512)
    (hH : rowOf H r = rowOf H' r') (hC : slabOf C r = slabOf C' r') :
    outSplitG H C Win Woc Woh (ix2 r j) = outSplitG H' C' Win Woc Woh (ix2 r' j) := by
  show Ideal.tanh (preSplit (wctx (attnDiv (logit (slabOf C r) (target (rowOf H r) (matOf Win)))) (slabOf C r))
      (rowOf H r) (matOf Woc) (matOf Woh) j)
    = Ideal.tanh (preSplit (wctx (attnDiv (logit (slabOf C' r') (target (rowOf H' r') (matOf Win)))) (slabOf C' r'))
      (rowOf H' r') (matOf Woc) (matOf Woh) j)
  rw [hH, hC]

/-! ## The printed index maps -/

theorem hz2 : (![0, 0] : Fin 2 → Nat) = fun _ => 0 := funext fun a => by fin_cases a <;> rfl
theorem hz3 : (![0, 0, 0] : Fin 3 → Nat) = fun _ => 0 := funext fun a => by fin_cases a <;> rfl

/-- Decided over the fifteen grid points: the query, context, output and attention windows sit at one block index on
    the batch axis and at block index zero on every other axis; the weight windows sit at block index zero; the batch
    block index is at most fourteen. -/
theorem idx_facts : ∀ t : Fin cfg0.N,
    win0_0.index t (0 : Fin 2) = win0_5.index t (0 : Fin 2) ∧ win0_0.index t (1 : Fin 2) = 0
    ∧ win0_1.index t (0 : Fin 3) = win0_5.index t (0 : Fin 2) ∧ win0_1.index t (1 : Fin 3) = 0
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (0 : Fin 2) = win0_5.index t (0 : Fin 2) ∧ win0_6.index t (1 : Fin 2) = 0
    ∧ win0_5.index t (1 : Fin 2) = 0 ∧ win0_5.index t (0 : Fin 2) ≤ 14 :=
  (by decide +kernel : ∀ t : Fin grid0.N, _)

/-- Every one of the fifteen batch blocks is some grid point's, for the output window and for the attention window. -/
theorem idx_onto5 : ∀ q : Fin 15, ∃ t : Fin cfg0.N, win0_5.index t = ![q.val, 0] :=
  (by decide +kernel : ∀ q : Fin 15, ∃ t : Fin grid0.N, win0_5.index t = ![q.val, 0])

theorem idx_onto6 : ∀ q : Fin 15, ∃ t : Fin cfg0.N, win0_6.index t = ![q.val, 0] :=
  (by decide +kernel : ∀ q : Fin 15, ∃ t : Fin grid0.N, win0_6.index t = ![q.val, 0])

/-- Batch row `y` of the block at grid point `t` is this batch row of the whole arrays. -/
def brow (t : Fin cfg0.N) (y : Fin 128) : Fin 1920 :=
  ⟨win0_5.index t (0 : Fin 2) * 128 + y.val, by
    have h := (idx_facts t).2.2.2.2.2.2.2.2.2.2.2.2.2.2
    have hy := y.isLt
    omega⟩

/-! ## The input blocks as rows of the argument arrays -/

/-- Row `y` of the query block at point `t` is row `brow t y` of the query array. -/
theorem blkH_row (c : Dev nD) (t : Fin cfg0.N) (y : Fin 128) :
    Cert.SoftDot.rowOf (iblk m c 0 t : FVec Ideal S128x512 .f32) y
      = Cert.SoftDot.rowOf (V m c main_arg0 : FVec Ideal S1920x512 .f32) (brow t y) := by
  funext k
  show (V m c main_arg0 : FVec Ideal S1920x512 .f32) (((cfg0.win 0).blk t).view.emb (ix2 y k))
    = (V m c main_arg0 : FVec Ideal S1920x512 .f32) (ix2 (brow t y) k)
  congr 1
  obtain ⟨e0, e1, -⟩ := idx_facts t
  funext a
  apply Fin.ext
  match a with
  | ⟨0, _⟩ => show win0_0.index t (0 : Fin 2) * 128 + 1 * y.val = win0_5.index t (0 : Fin 2) * 128 + y.val; omega
  | ⟨1, _⟩ => show win0_0.index t (1 : Fin 2) * 512 + 1 * k.val = k.val; omega

/-- Slab `y` of the context block at point `t` is slab `brow t y` of the context array. -/
theorem blkC_slab (c : Dev nD) (t : Fin cfg0.N) (y : Fin 128) :
    Cert.SoftDot.slabOf (iblk m c 1 t : FVec Ideal S128x64x256 .f32) y
      = Cert.SoftDot.slabOf (V m c main_arg1 : FVec Ideal S1920x64x256 .f32) (brow t y) := by
  funext s d
  show (V m c main_arg1 : FVec Ideal S1920x64x256 .f32) (((cfg0.win 1).blk t).view.emb (ix3 y s d))
    = (V m c main_arg1 : FVec Ideal S1920x64x256 .f32) (ix3 (brow t y) s d)
  congr 1
  obtain ⟨-, -, e0, e1, e2, -⟩ := idx_facts t
  funext a
  apply Fin.ext
  match a with
  | ⟨0, _⟩ => show win0_1.index t (0 : Fin 3) * 128 + 1 * y.val = win0_5.index t (0 : Fin 2) * 128 + y.val; omega
  | ⟨1, _⟩ => show win0_1.index t (1 : Fin 3) * 64 + 1 * s.val = s.val; omega
  | ⟨2, _⟩ => show win0_1.index t (2 : Fin 3) * 256 + 1 * d.val = d.val; omega

/-- The weight windows' blocks are the whole weight arrays. -/
theorem blkWin (c : Dev nD) (t : Fin cfg0.N) :
    (iblk m c 2 t : FVec Ideal S512x256 .f32) = (V m c main_arg2 : FVec Ideal S512x256 .f32) := by
  funext z
  show (V m c main_arg2 : FVec Ideal S512x256 .f32) (((cfg0.win 2).blk t).view.emb z)
    = (V m c main_arg2 : FVec Ideal S512x256 .f32) z
  congr 1
  obtain ⟨-, -, -, -, -, e0, e1, -⟩ := idx_facts t
  funext a
  apply Fin.ext
  match a with
  | ⟨0, _⟩ => show win0_2.index t (0 : Fin 2) * 512 + 1 * (z 0).val = (z 0).val; omega
  | ⟨1, _⟩ => show win0_2.index t (1 : Fin 2) * 256 + 1 * (z 1).val = (z 1).val; omega

theorem blkWoc (c : Dev nD) (t : Fin cfg0.N) :
    (iblk m c 3 t : FVec Ideal S256x512 .f32) = (V m c main_arg3 : FVec Ideal S256x512 .f32) := by
  funext z
  show (V m c main_arg3 : FVec Ideal S256x512 .f32) (((cfg0.win 3).blk t).view.emb z)
    = (V m c main_arg3 : FVec Ideal S256x512 .f32) z
  congr 1
  obtain ⟨-, -, -, -, -, -, -, e0, e1, -⟩ := idx_facts t
  funext a
  apply Fin.ext
  match a with
  | ⟨0, _⟩ => show win0_3.index t (0 : Fin 2) * 256 + 1 * (z 0).val = (z 0).val; omega
  | ⟨1, _⟩ => show win0_3.index t (1 : Fin 2) * 512 + 1 * (z 1).val = (z 1).val; omega

theorem blkWoh (c : Dev nD) (t : Fin cfg0.N) :
    (iblk m c 4 t : FVec Ideal S512x512 .f32) = (V m c main_arg4 : FVec Ideal S512x512 .f32) := by
  funext z
  show (V m c main_arg4 : FVec Ideal S512x512 .f32) (((cfg0.win 4).blk t).view.emb z)
    = (V m c main_arg4 : FVec Ideal S512x512 .f32) z
  congr 1
  obtain ⟨-, -, -, -, -, -, -, -, -, e0, e1, -⟩ := idx_facts t
  funext a
  apply Fin.ext
  match a with
  | ⟨0, _⟩ => show win0_4.index t (0 : Fin 2) * 512 + 1 * (z 0).val = (z 0).val; omega
  | ⟨1, _⟩ => show win0_4.index t (1 : Fin 2) * 512 + 1 * (z 1).val = (z 1).val; omega

/-! ## What each grid point writes back -/

/-- What point `t` writes back to the attention array is block `t` of the whole-batch attention weights. -/
theorem flushed6_eq (c : Dev nD) (t : Fin cfg0.N) :
    (dats m 0 c).flushed 6 t = ((cfg0.win 6).blk t).view.read (Elt Ideal)
      (Cert.SoftDot.attnDivG (n := 1920) (V m c main_arg0) (V m c main_arg1) (V m c main_arg2)) := by
  rw [Value.flushed6]
  unfold out0_6
  rw [View.canon_unit_zero hz2]
  simp only [View.ld_unit_zero (S := S128x512) hz2, View.ld_unit_zero (S := S128x64x256) hz3,
    View.ld_unit_zero (S := S512x256) hz2]
  rw [Pay.pay1_eq]
  refine funext fun (y : S128x64.Idx) => ?_
  obtain ⟨r, s, rfl⟩ : ∃ (r : Fin 128) (s : Fin 64), y = ix2 r s := ⟨y 0, y 1, eq_ix2 y⟩
  have he : ((cfg0.win 6).blk t).view.emb (ix2 r s) = (ix2 (brow t r) s : S1920x64.Idx) := by
    obtain ⟨-, -, -, -, -, -, -, -, -, -, -, e0, e1, -⟩ := idx_facts t
    funext a
    apply Fin.ext
    match a with
    | ⟨0, _⟩ => show win0_6.index t (0 : Fin 2) * 128 + 1 * r.val = win0_5.index t (0 : Fin 2) * 128 + r.val; omega
    | ⟨1, _⟩ => show win0_6.index t (1 : Fin 2) * 64 + 1 * s.val = s.val; omega
  show Cert.SoftDot.attnDivG (n := 128) (iblk m c 0 t) (iblk m c 1 t) (iblk m c 2 t) (ix2 r s)
    = Cert.SoftDot.attnDivG (n := 1920) (V m c main_arg0) (V m c main_arg1) (V m c main_arg2)
        (((cfg0.win 6).blk t).view.emb (ix2 r s))
  rw [he, blkWin]
  exact attnDivG_row _ _ _ _ _ _ _ _ (blkH_row m c t r) (blkC_slab m c t r)

/-- What point `t` writes back to the output array is block `t` of the whole-batch output. -/
theorem flushed5_eq (c : Dev nD) (t : Fin cfg0.N) :
    (dats m 0 c).flushed 5 t = ((cfg0.win 5).blk t).view.read (Elt Ideal)
      (Cert.SoftDot.outSplitG (n := 1920) (V m c main_arg0) (V m c main_arg1) (V m c main_arg2) (V m c main_arg3)
        (V m c main_arg4)) := by
  rw [Value.flushed5]
  unfold out0_5
  rw [View.canon_unit_zero hz2]
  simp only [View.ld_unit_zero (S := S128x512) hz2, View.ld_unit_zero (S := S128x64x256) hz3,
    View.ld_unit_zero (S := S512x256) hz2, View.ld_unit_zero (S := S256x512) hz2,
    View.ld_unit_zero (S := S512x512) hz2]
  rw [Pay.pay2_eq]
  refine funext fun (y : S128x512.Idx) => ?_
  obtain ⟨r, j, rfl⟩ : ∃ (r : Fin 128) (j : Fin 512), y = ix2 r j := ⟨y 0, y 1, eq_ix2 y⟩
  have he : ((cfg0.win 5).blk t).view.emb (ix2 r j) = (ix2 (brow t r) j : S1920x512.Idx) := by
    obtain ⟨-, -, -, -, -, -, -, -, -, -, -, -, -, e1, -⟩ := idx_facts t
    funext a
    apply Fin.ext
    match a with
    | ⟨0, _⟩ => show win0_5.index t (0 : Fin 2) * 128 + 1 * r.val = win0_5.index t (0 : Fin 2) * 128 + r.val; omega
    | ⟨1, _⟩ => show win0_5.index t (1 : Fin 2) * 512 + 1 * j.val = j.val; omega
  show Cert.SoftDot.outSplitG (n := 128) (iblk m c 0 t) (iblk m c 1 t) (iblk m c 2 t) (iblk m c 3 t) (iblk m c 4 t)
      (ix2 r j)
    = Cert.SoftDot.outSplitG (n := 1920) (V m c main_arg0) (V m c main_arg1) (V m c main_arg2) (V m c main_arg3)
        (V m c main_arg4) (((cfg0.win 5).blk t).view.emb (ix2 r j))
  rw [he, blkWin, blkWoc, blkWoh]
  exact outSplitG_row _ _ _ _ _ _ _ _ _ _ (blkH_row m c t r) (blkC_slab m c t r)

/-! ## The blocks tile the arrays -/

/-- An index of the attention array is in point `t`'s block iff each coordinate is in the block's range on its axis. -/
theorem mem_blk6 (t : Fin cfg0.N) (i : S1920x64.Idx) :
    i ∈ ((cfg0.win 6).blk t).view.set ↔ ∀ a : Fin 2, win0_6.index t a * S128x64.size a ≤ (i a).val
      ∧ (i a).val < win0_6.index t a * S128x64.size a + S128x64.size a := by
  show i ∈ ((View.whole main_v0_1).slice (win0_6.rect t)).set ↔ _
  rw [View.set_slice_whole, Rect.mem_set_unit]
  exact Iff.rfl

/-- An index of the output array is in point `t`'s block iff each coordinate is in the block's range on its axis. -/
theorem mem_blk5 (t : Fin cfg0.N) (i : S1920x512.Idx) :
    i ∈ ((cfg0.win 5).blk t).view.set ↔ ∀ a : Fin 2, win0_5.index t a * S128x512.size a ≤ (i a).val
      ∧ (i a).val < win0_5.index t a * S128x512.size a + S128x512.size a := by
  show i ∈ ((View.whole main_v0_0).slice (win0_5.rect t)).set ↔ _
  rw [View.set_slice_whole, Rect.mem_set_unit]
  exact Iff.rfl

/-- Every index of the attention array is in the block of the point whose batch block index is the index's batch
    row divided by 128. -/
theorem cover6 (i : S1920x64.Idx) :
    ∃ t : Fin cfg0.N, (cfg0.win 6).flush t = true ∧ i ∈ ((cfg0.win 6).blk t).view.set := by
  have hi0 : (i 0).val < 1920 := (i 0).isLt
  have hi1 : (i 1).val < 64 := (i 1).isLt
  obtain ⟨t, ht⟩ := idx_onto6 ⟨(i 0).val / 128, by omega⟩
  have q0 : win0_6.index t (0 : Fin 2) = (i 0).val / 128 := congrFun ht 0
  have q1 : win0_6.index t (1 : Fin 2) = 0 := congrFun ht 1
  refine ⟨t, flush0_6 t, ?_⟩
  rw [mem_blk6]
  intro a
  match a with
  | ⟨0, _⟩ =>
    show win0_6.index t (0 : Fin 2) * 128 ≤ (i 0).val ∧ (i 0).val < win0_6.index t (0 : Fin 2) * 128 + 128
    omega
  | ⟨1, _⟩ =>
    show win0_6.index t (1 : Fin 2) * 64 ≤ (i 1).val ∧ (i 1).val < win0_6.index t (1 : Fin 2) * 64 + 64
    omega

/-- And every index of the output array likewise. -/
theorem cover5 (i : S1920x512.Idx) :
    ∃ t : Fin cfg0.N, (cfg0.win 5).flush t = true ∧ i ∈ ((cfg0.win 5).blk t).view.set := by
  have hi0 : (i 0).val < 1920 := (i 0).isLt
  have hi1 : (i 1).val < 512 := (i 1).isLt
  obtain ⟨t, ht⟩ := idx_onto5 ⟨(i 0).val / 128, by omega⟩
  have q0 : win0_5.index t (0 : Fin 2) = (i 0).val / 128 := congrFun ht 0
  have q1 : win0_5.index t (1 : Fin 2) = 0 := congrFun ht 1
  refine ⟨t, flush0_5 t, ?_⟩
  rw [mem_blk5]
  intro a
  match a with
  | ⟨0, _⟩ =>
    show win0_5.index t (0 : Fin 2) * 128 ≤ (i 0).val ∧ (i 0).val < win0_5.index t (0 : Fin 2) * 128 + 128
    omega
  | ⟨1, _⟩ =>
    show win0_5.index t (1 : Fin 2) * 512 ≤ (i 1).val ∧ (i 1).val < win0_5.index t (1 : Fin 2) * 512 + 512
    omega

/-! ## The arrays after the run -/

/-- The attention array ends holding the whole-batch attention weights of the argument arrays. -/
theorem final6 (c : Dev nD) : (dats m 0 c).arrAt 6 cfg0.N
    = Cert.SoftDot.attnDivG (n := 1920) (V m c main_arg0) (V m c main_arg1) (V m c main_arg2) :=
  (dats m 0 c).arrAt_eq_of_cover 6 _ (fun t _ => flushed6_eq m c t) cover6

/-- The output array ends holding the whole-batch output of the argument arrays. -/
theorem final5 (c : Dev nD) : (dats m 0 c).arrAt 5 cfg0.N
    = Cert.SoftDot.outSplitG (n := 1920) (V m c main_arg0) (V m c main_arg1) (V m c main_arg2) (V m c main_arg3)
        (V m c main_arg4) :=
  (dats m 0 c).arrAt_eq_of_cover 5 _ (fun t _ => flushed5_eq m c t) cover5

/-- After the run the output holds the tanh of the split projection and the attention array the quotient-form
    softmax weights, of the argument arrays; the arguments are unchanged. -/
theorem run_value : θ_run defs (onTc (τ := τ) (main (F := Ideal))) ⟨m, fun _ => 0, ρ⟩ fun r => ∀ c : Dev nD,
      r.2.mem ((c.tc : Thread nD τ).loc main_v0_0) = Cert.SoftDot.outSplitG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v0_1) = Cert.SoftDot.attnDivG (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (final5 m c), (h c).2.1.trans (final6 m c), (h c).2.2⟩)
    (Value.run_blocks m ρ)

end Cert.ReferenceIdeal.Val

end
-- ==== Proof.lean ====
/-
  Soft dot-product attention over a batch of 1920 rows: a kernel that tiles the batch in blocks of 240 rows, forms
  the softmax weights as the exponentials times the reciprocal of their sum, and projects the concatenation
  [weighted context ; query] through the stacked weight [W_c ; W_h] in one product, against a reference that tiles
  the batch in blocks of 128 rows, forms the weights as a quotient, and adds two separate projections.

  Each batch row's results depend on that row of the inputs only, so the tilings do not matter: both programs end
  with whole-batch functions of the argument arrays. The stacked product is the sum of the two projections by
  splitting a sum over 768 = 256 + 512 indices. The reciprocal form of the weights is the quotient form because
  under the precondition every input is a real number: then the logits are real, the row maximum is real, every
  shifted exponential is the exponential of a real, and their sum is a positive real, in particular not zero.
  The idealization rewrote nothing, so its conjunct is trivial.
-/
import proofs.«117889_g2000304853130043_pallasbulk_1157_2_alg».proof.Defs
import proofs.«117889_g2000304853130043_pallasbulk_1157_2_alg».proof.Proof.Gen.Kernel
import proofs.«117889_g2000304853130043_pallasbulk_1157_2_alg».proof.Proof.Gen.Kernel.Skeleton
import proofs.«117889_g2000304853130043_pallasbulk_1157_2_alg».proof.Proof.Gen.Kernel.Launch
import proofs.«117889_g2000304853130043_pallasbulk_1157_2_alg».proof.Proof.Gen.Kernel.Points
import proofs.«117889_g2000304853130043_pallasbulk_1157_2_alg».proof.Proof.Gen.Kernel.Frame
import proofs.«117889_g2000304853130043_pallasbulk_1157_2_alg».proof.Proof.Gen.KernelIdeal
import proofs.«117889_g2000304853130043_pallasbulk_1157_2_alg».proof.Proof.Gen.KernelIdeal.Skeleton
import proofs.«117889_g2000304853130043_pallasbulk_1157_2_alg».proof.Proof.Gen.KernelIdeal.Launch
import proofs.«117889_g2000304853130043_pallasbulk_1157_2_alg».proof.Proof.Gen.KernelIdeal.Points
import proofs.«117889_g2000304853130043_pallasbulk_1157_2_alg».proof.Proof.Gen.KernelIdeal.Frame
import proofs.«117889_g2000304853130043_pallasbulk_1157_2_alg».proof.Proof.Gen.ReferenceIdeal
import proofs.«117889_g2000304853130043_pallasbulk_1157_2_alg».proof.Proof.Gen.ReferenceIdeal.Skeleton
import proofs.«117889_g2000304853130043_pallasbulk_1157_2_alg».proof.Proof.Gen.ReferenceIdeal.Launch
import proofs.«117889_g2000304853130043_pallasbulk_1157_2_alg».proof.Proof.Gen.ReferenceIdeal.Points
import proofs.«117889_g2000304853130043_pallasbulk_1157_2_alg».proof.Proof.Gen.ReferenceIdeal.Frame
import proofs.«117889_g2000304853130043_pallasbulk_1157_2_alg».proof.Proof.Gen.Pre_finite_inputs
import proofs.«117889_g2000304853130043_pallasbulk_1157_2_alg».proof.Proof.Gen.KernelIdeal.Value
import proofs.«117889_g2000304853130043_pallasbulk_1157_2_alg».proof.Proof.Gen.ReferenceIdeal.Value
import proofs.«117889_g2000304853130043_pallasbulk_1157_2_alg».proof.Proof.LibBlockOps
import proofs.«117889_g2000304853130043_pallasbulk_1157_2_alg».proof.Proof.Spec
import proofs.«117889_g2000304853130043_pallasbulk_1157_2_alg».proof.Proof.Finite
import proofs.«117889_g2000304853130043_pallasbulk_1157_2_alg».proof.Proof.KernelValue
import proofs.«117889_g2000304853130043_pallasbulk_1157_2_alg».proof.Proof.RefValue
import Idealize.ShloMosaic.Adequacy
import Idealize.ShloMosaic.Init

noncomputable section

namespace Cert.Proof

open Idealize.ShloMosaic Idealize.SL.Sem

instance : Cert.Pre_finite_inputs.Facts := Cert.Pre_finite_inputs.Gen.facts
instance : Cert.Kernel.Facts := Cert.Kernel.Gen.facts
instance : Cert.KernelIdeal.Facts := Cert.KernelIdeal.Gen.facts
instance : Cert.ReferenceIdeal.Facts := Cert.ReferenceIdeal.Gen.facts

/-- The two programs run from agreeing memories to the same whole-batch functions of the arguments: the kernel's
    reciprocal-form, concatenated results are the reference's quotient-form, split ones on real inputs. -/
theorem algebraic : Cert.algebraic_KernelIdeal_ReferenceIdeal := by
  intro m ρ m' ρ' hpre hagree
  have hfin := fun c : Dev Cert.KernelIdeal.nD => Cert.Finite.real_of_pre _ _ _ _ _ (hpre c)
  refine ⟨fun c => Cert.SoftDot.outSplitG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.SoftDot.attnDivG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Val.run_value m ρ)
    obtain ⟨h0, h1, k0, k1, k2, k3, k4⟩ := h c
    obtain ⟨f0, f1, f2⟩ := hfin c
    exact ⟨h0.trans (Cert.SoftDot.outCatG_eq _ _ _ _ _ f0 f1 f2), h1.trans (Cert.SoftDot.attnMulG_eq _ _ _ f0 f1 f2), k0, k1, k2, k3, k4⟩
  · refine (θ_run Cert.ReferenceIdeal.defs _ _).mono (fun r h c => ?_) (Cert.ReferenceIdeal.Val.run_value m' ρ')
    obtain ⟨h0, h1, k0, k1, k2, k3, k4⟩ := h c
    obtain ⟨a0, a1, a2, a3, a4⟩ := hagree c
    refine ⟨h0.trans ?_, h1.trans ?_, k0, k1, k2, k3, k4⟩
    · rw [a0, a1, a2, a3, a4]
    · rw [a0, a1, a2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
